-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v72) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x1 : Shape := ⟨2, ![16384, 1]⟩
abbrev S512x2049 : Shape := ⟨2, ![512, 2049]⟩
abbrev S2049 : Shape := ⟨1, ![2049]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x1 : S_.BroadcastsInDim S16384x1 (![] : Fin 0 → Fin S16384x1.rank)
  reducesTo_S16384x1_S_d0_1 : S16384x1.ReducesTo [0, 1] S_
  bcast_S_S512x2049 : S_.BroadcastsInDim S512x2049 (![] : Fin 0 → Fin S512x2049.rank)
  reducesTo_S512x2049_S_d0_1 : S512x2049.ReducesTo [0, 1] S_
  bcast_S_S2049 : S_.BroadcastsInDim S2049 (![] : Fin 0 → Fin S2049.rank)
  reducesTo_S2049_S_d0 : S2049.ReducesTo [0] S_

variable [Facts]

def fn_part2 {F : FTy → Type} [FloatOps F] (main_arg7 : FVec F S512x2049 .f32) (main_arg8 : FVec F S512x2049 .f32) (main_arg9 : FVec F S2049 .f32) (main_v33 : IVec S_ 1) : IVec S_ 1 :=
  let main_v34 : FVec F S512x2049 .f32 := Host.absf main_arg7
  let main_cst_12 : FVec F S_ .f32 := constant S_ .f32 0x7F800000#32
  let main_v35 : FVec F S512x2049 .f32 := broadcastInDim S512x2049 ![] bcast_S_S512x2049 main_cst_12
  let main_v36 : IVec S512x2049 1 := cmpf .olt main_v34 main_v35
  let main_c_13 : IVec S_ 1 := constantI S_ 1 1#1
  let main_v37 : IVec S_ 1 := (fun x v => Host.reduce IntOp.andi x v reducesTo_S512x2049_S_d0_1 h_S_) main_v36 main_c_13
  let main_v38 : IVec S_ 1 := andi main_v33 main_v37
  let main_v39 : FVec F S512x2049 .f32 := Host.absf main_arg8
  let main_cst_14 : FVec F S_ .f32 := constant S_ .f32 0x7F800000#32
  let main_v40 : FVec F S512x2049 .f32 := broadcastInDim S512x2049 ![] bcast_S_S512x2049 main_cst_14
  let main_v41 : IVec S512x2049 1 := cmpf .olt main_v39 main_v40
  let main_c_15 : IVec S_ 1 := constantI S_ 1 1#1
  let main_v42 : IVec S_ 1 := (fun x v => Host.reduce IntOp.andi x v reducesTo_S512x2049_S_d0_1 h_S_) main_v41 main_c_15
  let main_v43 : IVec S_ 1 := andi main_v38 main_v42
  let main_v44 : FVec F S2049 .f32 := Host.absf main_arg9
  let main_cst_16 : FVec F S_ .f32 := constant S_ .f32 0x7F800000#32
  let main_v45 : FVec F S2049 .f32 := broadcastInDim S2049 ![] bcast_S_S2049 main_cst_16
  let main_v46 : IVec S2049 1 := cmpf .olt main_v44 main_v45
  let main_c_17 : IVec S_ 1 := constantI S_ 1 1#1
  let main_v47 : IVec S_ 1 := (fun x v => Host.reduce IntOp.andi x v reducesTo_S2049_S_d0 h_S_) main_v46 main_c_17
  let main_v48 : IVec S_ 1 := andi main_v43 main_v47
  main_v48

def fn_part1 {F : FTy → Type} [FloatOps F] (main_arg4 : FVec F S16384x1 .f32) (main_arg5 : FVec F S16384x1 .f32) (main_arg6 : FVec F S512x2049 .f32) (main_arg7 : FVec F S512x2049 .f32) (main_arg8 : FVec F S512x2049 .f32) (main_arg9 : FVec F S2049 .f32) (main_v13 : IVec S_ 1) (main_v16 : IVec S16384x512 1) : IVec S_ 1 :=
  let main_c_5 : IVec S_ 1 := constantI S_ 1 1#1
  let main_v17 : IVec S_ 1 := (fun x v => Host.reduce IntOp.andi x v reducesTo_S16384x512_S_d0_1 h_S_) main_v16 main_c_5
  let main_v18 : IVec S_ 1 := andi main_v13 main_v17
  let main_v19 : FVec F S16384x1 .f32 := Host.absf main_arg4
  let main_cst_6 : FVec F S_ .f32 := constant S_ .f32 0x7F800000#32
  let main_v20 : FVec F S16384x1 .f32 := broadcastInDim S16384x1 ![] bcast_S_S16384x1 main_cst_6
  let main_v21 : IVec S16384x1 1 := cmpf .olt main_v19 main_v20
  let main_c_7 : IVec S_ 1 := constantI S_ 1 1#1
  let main_v22 : IVec S_ 1 := (fun x v => Host.reduce IntOp.andi x v reducesTo_S16384x1_S_d0_1 h_S_) main_v21 main_c_7
  let main_v23 : IVec S_ 1 := andi main_v18 main_v22
  let main_v24 : FVec F S16384x1 .f32 := Host.absf main_arg5
  let main_cst_8 : FVec F S_ .f32 := constant S_ .f32 0x7F800000#32
  let main_v25 : FVec F S16384x1 .f32 := broadcastInDim S16384x1 ![] bcast_S_S16384x1 main_cst_8
  let main_v26 : IVec S16384x1 1 := cmpf .olt main_v24 main_v25
  let main_c_9 : IVec S_ 1 := constantI S_ 1 1#1
  let main_v27 : IVec S_ 1 := (fun x v => Host.reduce IntOp.andi x v reducesTo_S16384x1_S_d0_1 h_S_) main_v26 main_c_9
  let main_v28 : IVec S_ 1 := andi main_v23 main_v27
  let main_v29 : FVec F S512x2049 .f32 := Host.absf main_arg6
  let main_cst_10 : FVec F S_ .f32 := constant S_ .f32 0x7F800000#32
  let main_v30 : FVec F S512x2049 .f32 := broadcastInDim S512x2049 ![] bcast_S_S512x2049 main_cst_10
  let main_v31 : IVec S512x2049 1 := cmpf .olt main_v29 main_v30
  let main_c_11 : IVec S_ 1 := constantI S_ 1 1#1
  let main_v32 : IVec S_ 1 := (fun x v => Host.reduce IntOp.andi x v reducesTo_S512x2049_S_d0_1 h_S_) main_v31 main_c_11
  let main_v33 : IVec S_ 1 := andi main_v28 main_v32
  fn_part2 (F := F) main_arg7 main_arg8 main_arg9 main_v33

def fn {F : FTy → Type} [FloatOps F] (main_arg0 : FVec F S16384x512 .f32) (main_arg1 : FVec F S16384x512 .f32) (main_arg2 : FVec F S16384x512 .f32) (main_arg3 : FVec F S16384x512 .f32) (main_arg4 : FVec F S16384x1 .f32) (main_arg5 : FVec F S16384x1 .f32) (main_arg6 : FVec F S512x2049 .f32) (main_arg7 : FVec F S512x2049 .f32) (main_arg8 : FVec F S512x2049 .f32) (main_arg9 : FVec F S2049 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S16384x512 .f32 := Host.absf main_arg3
  let main_cst_4 : FVec F S_ .f32 := constant S_ .f32 0x7F800000#32
  let main_v15 : FVec F S16384x512 .f32 := broadcastInDim S16384x512 ![] bcast_S_S16384x512 main_cst_4
  let main_v16 : IVec S16384x512 1 := cmpf .olt main_v14 main_v15
  fn_part1 (F := F) main_arg4 main_arg5 main_arg6 main_arg7 main_arg8 main_arg9 main_v13 main_v16
-- ==== Kernel.lean ====
abbrev S16384x512 : Shape := ⟨2, ![16384, 512]⟩
abbrev S16384x1 : Shape := ⟨2, ![16384, 1]⟩
abbrev S512x2049 : Shape := ⟨2, ![512, 2049]⟩
abbrev S2049 : Shape := ⟨1, ![2049]⟩
abbrev S_ : Shape := ⟨0, ![]⟩
abbrev S512x2176 : Shape := ⟨2, ![512, 2176]⟩
abbrev S2176 : Shape := ⟨1, ![2176]⟩
abbrev S1x2176 : Shape := ⟨2, ![1, 2176]⟩
abbrev S512x512 : Shape := ⟨2, ![512, 512]⟩
abbrev S512x1 : Shape := ⟨2, ![512, 1]⟩

abbrev nBuf : Space → Nat
  | .hbm => 29
  | .vmem => 22
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x1, .f32⟩
  | .hbm, ⟨5, _⟩ => ⟨S16384x1, .f32⟩
  | .hbm, ⟨6, _⟩ => ⟨S512x2049, .f32⟩
  | .hbm, ⟨7, _⟩ => ⟨S512x2049, .f32⟩
  | .hbm, ⟨8, _⟩ => ⟨S512x2049, .f32⟩
  | .hbm, ⟨9, _⟩ => ⟨S2049, .f32⟩
  | .hbm, ⟨10, _⟩ => ⟨S_, .i32⟩
  | .hbm, ⟨11, _⟩ => ⟨S_, .f32⟩
  | .hbm, ⟨12, _⟩ => ⟨S512x2176, .f32⟩
  | .hbm, ⟨13, _⟩ => ⟨S512x2176, .bf16⟩
  | .hbm, ⟨14, _⟩ => ⟨S_, .i32⟩
  | .hbm, ⟨15, _⟩ => ⟨S_, .f32⟩
  | .hbm, ⟨16, _⟩ => ⟨S512x2176, .f32⟩
  | .hbm, ⟨17, _⟩ => ⟨S512x2176, .bf16⟩
  | .hbm, ⟨18, _⟩ => ⟨S_, .i32⟩
  | .hbm, ⟨19, _⟩ => ⟨S_, .f32⟩
  | .hbm, ⟨20, _⟩ => ⟨S512x2176, .f32⟩
  | .hbm, ⟨21, _⟩ => ⟨S512x2176, .bf16⟩
  | .hbm, ⟨22, _⟩ => ⟨S_, .i32⟩
  | .hbm, ⟨23, _⟩ => ⟨S_, .f32⟩
  | .hbm, ⟨24, _⟩ => ⟨S2176, .f32⟩
  | .hbm, ⟨25, _⟩ => ⟨S1x2176, .f32⟩
  | .hbm, ⟨26, _⟩ => ⟨S16384x512, .f32⟩
  | .hbm, ⟨27, _⟩ => ⟨S16384x512, .f32⟩
  | .hbm, ⟨28, _⟩ => ⟨S16384x1, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x2176, .bf16⟩
  | .local _ .vmem, ⟨13, _⟩ => ⟨S512x2176, .bf16⟩
  | .local _ .vmem, ⟨14, _⟩ => ⟨S512x2176, .bf16⟩
  | .local _ .vmem, ⟨15, _⟩ => ⟨S1x2176, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x1, .f32⟩
  | .local _ .vmem, ⟨21, _⟩ => ⟨S512x1, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_call1_v0 : Ref sig .tc := ⟨.hbm, 15, rfl⟩
abbrev main_v2 : Ref sig .tc := ⟨.hbm, 16, rfl⟩
abbrev main_v3 : Ref sig .tc := ⟨.hbm, 17, rfl⟩
abbrev main_c_1 : Ref sig .tc := ⟨.hbm, 18, rfl⟩
abbrev main_call2_v0 : Ref sig .tc := ⟨.hbm, 19, rfl⟩
abbrev main_v4 : Ref sig .tc := ⟨.hbm, 20, rfl⟩
abbrev main_v5 : Ref sig .tc := ⟨.hbm, 21, rfl⟩
abbrev main_c_2 : Ref sig .tc := ⟨.hbm, 22, rfl⟩
abbrev main_call3_v0 : Ref sig .tc := ⟨.hbm, 23, rfl⟩
abbrev main_v6 : Ref sig .tc := ⟨.hbm, 24, rfl⟩
abbrev main_v7 : Ref sig .tc := ⟨.hbm, 25, rfl⟩
abbrev main_v8_0 : Ref sig .tc := ⟨.hbm, 26, rfl⟩
abbrev main_v8_1 : Ref sig .tc := ⟨.hbm, 27, rfl⟩
abbrev main_v8_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x2176 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x2176 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x2176 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2176 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  pads_S512x2049_S512x2176_000_01270 : S512x2049.Pads (![0, 0] : Fin 2 → Nat) ![0, 127] ![0, 0] S512x2176
  h_S_ : 0 < S_.numel
  bitsLt_bf16_f32 : FTy.bits .bf16 < FTy.bits .f32
  pads_S2049_S2176_01270 : S2049.Pads (![0] : Fin 1 → Nat) ![127] ![0] S2176
  shapeCasts_S2176_S1x2176 : S2176.ShapeCasts S1x2176
  inb_S512x512_S512x512_0_0 : ∀ a, (![0, 0] : Fin 2 → Nat) a + S512x512.size a ≤ S512x512.size a
  h_S512x512 : 0 < S512x512.numel
  inb_S512x1_S512x1_0_0 : ∀ a, (![0, 0] : Fin 2 → Nat) a + S512x1.size a ≤ S512x1.size a
  h_S512x1 : 0 < S512x1.numel
  inb_S512x2176_S512x2176_0_0 : ∀ a, (![0, 0] : Fin 2 → Nat) a + S512x2176.size a ≤ S512x2176.size a
  h_S512x2176 : 0 < S512x2176.numel
  shapeCasts_S512x2176_S512x2176 : S512x2176.ShapeCasts S512x2176
  broadcasts_S512x1_S512x2176 : S512x1.Broadcasts S512x2176
  inb_S1x2176_S1x2176_0_0 : ∀ a, (![0, 0] : Fin 2 → Nat) a + S1x2176.size a ≤ S1x2176.size a
  h_S1x2176 : 0 < S1x2176.numel
  shapeCasts_S1x2176_S1x2176 : S1x2176.ShapeCasts S1x2176
  broadcasts_S1x2176_S512x2176 : S1x2176.Broadcasts S512x2176
  slices_S512x2176_o0_0_S512x512 : S512x2176.Slices ![0, 0] S512x512
  slices_S512x2176_o0_512_S512x512 : S512x2176.Slices ![0, 512] S512x512
  slices_S512x2176_o0_1024_S512x512 : S512x2176.Slices ![0, 1024] S512x512
  slices_S512x2176_o0_1536_S512x512 : S512x2176.Slices ![0, 1536] S512x512
  slices_S512x2176_o0_2048_S512x1 : S512x2176.Slices ![0, 2048] S512x1
  broadcasts_S512x1_S512x512 : S512x1.Broadcasts S512x512
  dot_S512x512_S512x2176_S512x2176_1_0_0_1_n_n_wf : DotDims.WF S512x512 S512x2176 S512x2176 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S16384x512.size a
  hwx0_1 : ∀ i : grid0.Coords, EltTy.bits .f32 = 32 ∨ (Rect.block (s := S16384x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S16384x512.size a
  hwx0_2 : ∀ i : grid0.Coords, EltTy.bits .f32 = 32 ∨ (Rect.block (s := S16384x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S16384x512.size a
  hwx0_3 : ∀ i : grid0.Coords, EltTy.bits .f32 = 32 ∨ (Rect.block (s := S16384x512) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S16384x1.size a
  hwx0_4 : ∀ i : grid0.Coords, EltTy.bits .f32 = 32 ∨ (Rect.block (s := S16384x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S16384x1.size a
  hwx0_5 : ∀ i : grid0.Coords, EltTy.bits .f32 = 32 ∨ (Rect.block (s := S16384x1) S512x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x2176.size a ≤ S512x2176.size a
  hwx0_6 : ∀ i : grid0.Coords, EltTy.bits .bf16 = 32 ∨ (Rect.block (s := S512x2176) S512x2176.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x2176.size a ≤ S512x2176.size a
  hwx0_7 : ∀ i : grid0.Coords, EltTy.bits .bf16 = 32 ∨ (Rect.block (s := S512x2176) S512x2176.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x2176.size a ≤ S512x2176.size a
  hwx0_8 : ∀ i : grid0.Coords, EltTy.bits .bf16 = 32 ∨ (Rect.block (s := S512x2176) S512x2176.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x2176.size a ≤ S1x2176.size a
  hwx0_9 : ∀ i : grid0.Coords, EltTy.bits .f32 = 32 ∨ (Rect.block (s := S1x2176) S1x2176.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S16384x512.size a
  hwx0_10 : ∀ i : grid0.Coords, EltTy.bits .f32 = 32 ∨ (Rect.block (s := S16384x512) S512x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x512.size a ≤ S16384x512.size a
  hwx0_11 : ∀ i : grid0.Coords, EltTy.bits .f32 = 32 ∨ (Rect.block (s := S16384x512) S512x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x1.size a ≤ S16384x1.size a
  hwx0_12 : ∀ i : grid0.Coords, EltTy.bits .f32 = 32 ∨ (Rect.block (s := S16384x1) S512x1.size (cc0_transform_12 i) (hinb0_12 i)).WholeWords (EltTy.packing .f32)

variable [Facts₀]

def dot_S512x512_S512x2176_S512x2176_1_0_0_1_n_n : DotDims S512x512 S512x2176 S512x2176 where
  lhsContracting := [1]
  rhsContracting := [0]
  lhsNonContracting := [0]
  rhsNonContracting := [1]
  lhsBatch := []
  rhsBatch := []
  wf := dot_S512x512_S512x2176_S512x2176_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1) S512x2176.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S512x2176.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S512x2176.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S1x2176.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8_0) S512x512.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v8_1) S512x512.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v8_2) S512x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S16384x512 : Shape := ⟨2, ![16384, 512]⟩
abbrev S16384x1 : Shape := ⟨2, ![16384, 1]⟩
abbrev S512x2049 : Shape := ⟨2, ![512, 2049]⟩
abbrev S2049 : Shape := ⟨1, ![2049]⟩
abbrev S16384x2049 : Shape := ⟨2, ![16384, 2049]⟩
abbrev S1x2049 : Shape := ⟨2, ![1, 2049]⟩
abbrev S_ : Shape := ⟨0, ![]⟩

abbrev nBuf : Space → Nat
  | .hbm => 101
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x1, .f32⟩
  | .hbm, ⟨5, _⟩ => ⟨S16384x1, .f32⟩
  | .hbm, ⟨6, _⟩ => ⟨S512x2049, .f32⟩
  | .hbm, ⟨7, _⟩ => ⟨S512x2049, .f32⟩
  | .hbm, ⟨8, _⟩ => ⟨S512x2049, .f32⟩
  | .hbm, ⟨9, _⟩ => ⟨S2049, .f32⟩
  | .hbm, ⟨10, _⟩ => ⟨S16384x2049, .f32⟩
  | .hbm, ⟨11, _⟩ => ⟨S16384x2049, .f32⟩
  | .hbm, ⟨12, _⟩ => ⟨S16384x2049, .f32⟩
  | .hbm, ⟨13, _⟩ => ⟨S16384x2049, .f32⟩
  | .hbm, ⟨14, _⟩ => ⟨S16384x2049, .f32⟩
  | .hbm, ⟨15, _⟩ => ⟨S16384x2049, .f32⟩
  | .hbm, ⟨16, _⟩ => ⟨S16384x2049, .f32⟩
  | .hbm, ⟨17, _⟩ => ⟨S16384x2049, .f32⟩
  | .hbm, ⟨18, _⟩ => ⟨S16384x2049, .f32⟩
  | .hbm, ⟨19, _⟩ => ⟨S1x2049, .f32⟩
  | .hbm, ⟨20, _⟩ => ⟨S16384x2049, .f32⟩
  | .hbm, ⟨21, _⟩ => ⟨S16384x2049, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S_, .f32⟩
  | .hbm, ⟨26, _⟩ => ⟨S16384x512, .f32⟩
  | .hbm, ⟨27, _⟩ => ⟨S16384x512, .f32⟩
  | .hbm, ⟨28, _⟩ => ⟨S_, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S16384x512, .f32⟩
  | .hbm, ⟨33, _⟩ => ⟨S16384x512, .f32⟩
  | .hbm, ⟨34, _⟩ => ⟨S_, .f32⟩
  | .hbm, ⟨35, _⟩ => ⟨S16384x512, .f32⟩
  | .hbm, ⟨36, _⟩ => ⟨S16384x512, .f32⟩
  | .hbm, ⟨37, _⟩ => ⟨S_, .f32⟩
  | .hbm, ⟨38, _⟩ => ⟨S16384x512, .f32⟩
  | .hbm, ⟨39, _⟩ => ⟨S16384x512, .f32⟩
  | .hbm, ⟨40, _⟩ => ⟨S16384x512, .f32⟩
  | .hbm, ⟨41, _⟩ => ⟨S16384x512, .f32⟩
  | .hbm, ⟨42, _⟩ => ⟨S16384x512, .f32⟩
  | .hbm, ⟨43, _⟩ => ⟨S_, .f32⟩
  | .hbm, ⟨44, _⟩ => ⟨S16384x512, .f32⟩
  | .hbm, ⟨45, _⟩ => ⟨S16384x512, .f32⟩
  | .hbm, ⟨46, _⟩ => ⟨S_, .f32⟩
  | .hbm, ⟨47, _⟩ => ⟨S16384x512, .f32⟩
  | .hbm, ⟨48, _⟩ => ⟨S16384x512, .f32⟩
  | .hbm, ⟨49, _⟩ => ⟨S16384x512, .f32⟩
  | .hbm, ⟨50, _⟩ => ⟨S16384x512, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S16384x1, .f32⟩
  | .hbm, ⟨65, _⟩ => ⟨S16384x1, .f32⟩
  | .hbm, ⟨66, _⟩ => ⟨S_, .f32⟩
  | .hbm, ⟨67, _⟩ => ⟨S16384x1, .f32⟩
  | .hbm, ⟨68, _⟩ => ⟨S16384x1, .f32⟩
  | .hbm, ⟨69, _⟩ => ⟨S_, .f32⟩
  | .hbm, ⟨70, _⟩ => ⟨S16384x1, .f32⟩
  | .hbm, ⟨71, _⟩ => ⟨S16384x1, .f32⟩
  | .hbm, ⟨72, _⟩ => ⟨S_, .f32⟩
  | .hbm, ⟨73, _⟩ => ⟨S16384x1, .f32⟩
  | .hbm, ⟨74, _⟩ => ⟨S16384x1, .f32⟩
  | .hbm, ⟨75, _⟩ => ⟨S16384x512, .f32⟩
  | .hbm, ⟨76, _⟩ => ⟨S16384x512, .f32⟩
  | .hbm, ⟨77, _⟩ => ⟨S16384x512, .f32⟩
  | .hbm, ⟨78, _⟩ => ⟨S16384x1, .f32⟩
  | .hbm, ⟨79, _⟩ => ⟨S16384x512, .f32⟩
  | .hbm, ⟨80, _⟩ => ⟨S16384x512, .f32⟩
  | .hbm, ⟨81, _⟩ => ⟨S16384x512, .f32⟩
  | .hbm, ⟨82, _⟩ => ⟨S16384x1, .f32⟩
  | .hbm, ⟨83, _⟩ => ⟨S16384x512, .f32⟩
  | .hbm, ⟨84, _⟩ => ⟨S16384x512, .f32⟩
  | .hbm, ⟨85, _⟩ => ⟨S16384x512, .f32⟩
  | .hbm, ⟨86, _⟩ => ⟨S16384x512, .f32⟩
  | .hbm, ⟨87, _⟩ => ⟨S16384x512, .f32⟩
  | .hbm, ⟨88, _⟩ => ⟨S16384x1, .f32⟩
  | .hbm, ⟨89, _⟩ => ⟨S16384x512, .f32⟩
  | .hbm, ⟨90, _⟩ => ⟨S16384x512, .f32⟩
  | .hbm, ⟨91, _⟩ => ⟨S16384x1, .f32⟩
  | .hbm, ⟨92, _⟩ => ⟨S16384x1, .f32⟩
  | .hbm, ⟨93, _⟩ => ⟨S16384x512, .f32⟩
  | .hbm, ⟨94, _⟩ => ⟨S16384x512, .f32⟩
  | .hbm, ⟨95, _⟩ => ⟨S16384x512, .f32⟩
  | .hbm, ⟨96, _⟩ => ⟨S16384x512, .f32⟩
  | .hbm, ⟨97, _⟩ => ⟨S16384x512, .f32⟩
  | .hbm, ⟨98, _⟩ => ⟨S16384x1, .f32⟩
  | .hbm, ⟨99, _⟩ => ⟨S16384x1, .f32⟩
  | .hbm, ⟨100, _⟩ => ⟨S16384x1, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_cst_9 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_v42 : Ref sig .tc := ⟨.hbm, 68, rfl⟩
abbrev main_cst_10 : Ref sig .tc := ⟨.hbm, 69, rfl⟩
abbrev main_v43 : Ref sig .tc := ⟨.hbm, 70, rfl⟩
abbrev main_v44 : Ref sig .tc := ⟨.hbm, 71, rfl⟩
abbrev main_cst_11 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩

abbrev nD : Nat := 1
abbrev τ : Topo := Topo.v7x

variable {F : FTy → Type} [FloatOps F]

class Facts₀ : Prop where
  bcast_S16384x1_S16384x2049_0_1 : S16384x1.BroadcastsInDim S16384x2049 (![0, 1] : Fin 2 → Fin S16384x2049.rank)
  bcast_S2049_S1x2049_1 : S2049.BroadcastsInDim S1x2049 (![1] : Fin 1 → Fin S1x2049.rank)
  bcast_S1x2049_S16384x2049_0_1 : S1x2049.BroadcastsInDim S16384x2049 (![0, 1] : Fin 2 → Fin S16384x2049.rank)
  slices_S16384x2049_S16384x512_0_0 : S16384x2049.Slices ![0, 0] S16384x512
  bcast_S_S16384x512 : S_.BroadcastsInDim S16384x512 (![] : Fin 0 → Fin S16384x512.rank)
  slices_S16384x2049_S16384x512_0_512 : S16384x2049.Slices ![0, 512] S16384x512
  slices_S16384x2049_S16384x512_0_1024 : S16384x2049.Slices ![0, 1024] S16384x512
  slices_S16384x2049_S16384x512_0_1536 : S16384x2049.Slices ![0, 1536] S16384x512
  slices_S16384x2049_S16384x1_0_2048 : S16384x2049.Slices ![0, 2048] S16384x1
  bcast_S_S16384x1 : S_.BroadcastsInDim S16384x1 (![] : Fin 0 → Fin S16384x1.rank)
  bcast_S16384x1_S16384x512_0_1 : S16384x1.BroadcastsInDim S16384x512 (![0, 1] : Fin 2 → Fin S16384x512.rank)
  dot_S16384x512_S512x2049_S16384x2049_1_0_0_1_n_n_wf : DotDims.WF S16384x512 S512x2049 S16384x2049 [1] [0] [0] [1] [] []

variable [Facts₀]

def dot_S16384x512_S512x2049_S16384x2049_1_0_0_1_n_n : DotDims S16384x512 S512x2049 S16384x2049 where
  lhsContracting := [1]
  rhsContracting := [0]
  lhsNonContracting := [0]
  rhsNonContracting := [1]
  lhsBatch := []
  rhsBatch := []
  wf := dot_S16384x512_S512x2049_S16384x2049_1_0_0_1_n_n_wf

class Facts : Prop extends Facts₀ where

variable [Facts]
-- ==== Proof.CellSpec.lean ====
/-
  The hierarchical multiscale LSTM cell, as mathematics over the extended reals.

  One row `r` of the batch carries a cell state `c r`, a hidden state `h r`, the hidden states `hb r` of the layer below and
  `ht r` of the layer above (512 entries each) and two boundary indicators `z r`, `zb r`. The gate pre-activations of the
  row are the 2049 numbers

      s r j = Σₖ h r k · U11 k j  +  z r · Σₖ ht r k · U21 k j  +  zb r · Σₖ hb r k · W01 k j  +  bias j ,

  added in exactly this order. Columns `q`, `512 + q`, `1024 + q`, `1536 + q` (`q < 512`) feed the forget, input and output
  gates (the logistic function) and the candidate (tanh); column 2048 feeds the boundary detector, a hard sigmoid
  `min 1 (max 0 ((s·1 + 1) / 2))` rounded to the nearest integer, ties to even. The new cell and hidden states are

      c' = z·(i·g) + (1 − z)(1 − zb)·c + (1 − z)·zb·(f·c + i·g)
      h' = (1 − z)(1 − zb)·h + (z + (1 − z)·zb)·o·tanh c' .

  The one piece of algebra: the straight-through form `ẑ + (round ẑ − ẑ)` of the rounded boundary is `round ẑ`, because the
  hard sigmoid `ẑ` lies in `[0, 1]` and is therefore a real number (`straight_through`).
-/
import Idealize.ShloMosaic.PureOps.Ideal
import Idealize.ShloMosaic.PureOps.Ideal.Laws
import Idealize.ShloMosaic.Lib.ValueIdx

noncomputable section

namespace Cert.CellSpec

open Idealize.ShloMosaic Idealize.ShloMosaic.ValueIdx

/-! ## The three float words the programs spell -/

/-- The word of `1.0`. -/
abbrev one : EReal := Ideal.ofBits .f32 0x3F800000#32
/-- The word of `2.0`. -/
abbrev two : EReal := Ideal.ofBits .f32 0x40000000#32
/-- The word of `0.0`. -/
abbrev zero : EReal := Ideal.ofBits .f32 0x00000000#32

theorem one_eq : one = ((1 : ℝ) : EReal) := by
  simp [Ideal.ofBits, Ideal.ieee, -EReal.coe_mul]; norm_num

theorem zero_eq : zero = ((0 : ℝ) : EReal) := by
  simp [Ideal.ofBits, Ideal.ieee]

/-! ## One entry -/

/-- A gate pre-activation from its three inner products, the row's two indicators and the bias entry. -/
def preAct (sr td bu z zb b : EReal) : EReal := sr + z * td + zb * bu + b

/-- The new cell state from the indicators, the old state and the forget, input and candidate activations. -/
def cellUpdate (z zb c f i g : EReal) : EReal :=
  z * (i * g) + (one - z) * (one - zb) * c + (one - z) * zb * (f * c + i * g)

/-- The new hidden state from the indicators, the old one, the output activation and the new cell state. -/
def hidUpdate (z zb h o cn : EReal) : EReal :=
  (one - z) * (one - zb) * h + (z + (one - z) * zb) * o * Ideal.tanh cn

/-- The hard sigmoid of slope one, clipped to `[0, 1]`. -/
def hardSig (x : EReal) : EReal := min one (max zero (Ideal.div (x * one + one) two))

/-- Rounding to the nearest integer, ties to even; the infinities fixed. -/
def roundE (x : EReal) : EReal := Ideal.liftRound Ideal.roundHalfEven x

/-- The hard sigmoid is a real number: it lies between the words of `0.0` and `1.0`. -/
theorem hardSig_real (x : EReal) : ∃ r : ℝ, hardSig x = (r : EReal) := by
  have hle : hardSig x ≤ ((1 : ℝ) : EReal) := by
    unfold hardSig; rw [one_eq]; exact min_le_left _ _
  have hge : ((0 : ℝ) : EReal) ≤ hardSig x := by
    unfold hardSig; rw [one_eq, zero_eq]
    exact le_min (by exact_mod_cast zero_le_one) (le_max_left _ _)
  have hne_top : hardSig x ≠ ⊤ := fun h => by rw [h] at hle; exact absurd hle (not_le.mpr (EReal.coe_lt_top 1))
  have hne_bot : hardSig x ≠ ⊥ := fun h => by rw [h] at hge; exact absurd hge (not_le.mpr (EReal.bot_lt_coe 0))
  exact ⟨(hardSig x).toReal, (EReal.coe_toReal hne_top hne_bot).symm⟩

/-- The straight-through rounding `ẑ + (round ẑ − ẑ)` of a hard sigmoid is its rounding. -/
theorem straight_through (x : EReal) :
    hardSig x + (roundE (hardSig x) - hardSig x) = roundE (hardSig x) := by
  obtain ⟨r, hr⟩ := hardSig_real x
  rw [hr]
  unfold roundE
  rw [Ideal.liftRound_coe, ← EReal.coe_sub, ← EReal.coe_add]
  congr 1
  ring

/-! ## The arrays -/

/-- The ten argument arrays of the cell: `[16384, 512]` states, `[16384, 1]` indicators, `[512, 2049]` weights, the bias. -/
structure CellArgs where
  c : (⟨2, ![16384, 512]⟩ : Shape).Idx → EReal
  hb : (⟨2, ![16384, 512]⟩ : Shape).Idx → EReal
  h : (⟨2, ![16384, 512]⟩ : Shape).Idx → EReal
  ht : (⟨2, ![16384, 512]⟩ : Shape).Idx → EReal
  z : (⟨2, ![16384, 1]⟩ : Shape).Idx → EReal
  zb : (⟨2, ![16384, 1]⟩ : Shape).Idx → EReal
  U11 : (⟨2, ![512, 2049]⟩ : Shape).Idx → EReal
  U21 : (⟨2, ![512, 2049]⟩ : Shape).Idx → EReal
  W01 : (⟨2, ![512, 2049]⟩ : Shape).Idx → EReal
  bias : (⟨1, ![2049]⟩ : Shape).Idx → EReal

/-- Gate pre-activation `j` of row `r`. -/
def gatePre (A : CellArgs) (r : Fin 16384) (j : Fin 2049) : EReal :=
  preAct (∑ k : Fin 512, A.h (ix2 r k) * A.U11 (ix2 k j)) (∑ k : Fin 512, A.ht (ix2 r k) * A.U21 (ix2 k j))
    (∑ k : Fin 512, A.hb (ix2 r k) * A.W01 (ix2 k j)) (A.z (ix2 r (0 : Fin 1))) (A.zb (ix2 r (0 : Fin 1))) (A.bias (ix1 j))

/-- The forget gate's column for entry `q`. -/
def colF (q : Fin 512) : Fin 2049 := ⟨q.val, by have := q.isLt; omega⟩
/-- The input gate's column. -/
def colI (q : Fin 512) : Fin 2049 := ⟨512 + q.val, by have := q.isLt; omega⟩
/-- The output gate's column. -/
def colO (q : Fin 512) : Fin 2049 := ⟨1024 + q.val, by have := q.isLt; omega⟩
/-- The candidate's column. -/
def colG (q : Fin 512) : Fin 2049 := ⟨1536 + q.val, by have := q.isLt; omega⟩
/-- The boundary detector's column. -/
def colZ : Fin 2049 := ⟨2048, by decide⟩

/-- The new cell state at row `r`, entry `q`. -/
def cellAt (A : CellArgs) (r : Fin 16384) (q : Fin 512) : EReal :=
  cellUpdate (A.z (ix2 r (0 : Fin 1))) (A.zb (ix2 r (0 : Fin 1))) (A.c (ix2 r q))
    (Ideal.logistic (gatePre A r (colF q))) (Ideal.logistic (gatePre A r (colI q))) (Ideal.tanh (gatePre A r (colG q)))

/-- The new hidden state at row `r`, entry `q`. -/
def hidAt (A : CellArgs) (r : Fin 16384) (q : Fin 512) : EReal :=
  hidUpdate (A.z (ix2 r (0 : Fin 1))) (A.zb (ix2 r (0 : Fin 1))) (A.h (ix2 r q))
    (Ideal.logistic (gatePre A r (colO q))) (cellAt A r q)

/-- The new boundary indicator of row `r`. -/
def boundaryAt (A : CellArgs) (r : Fin 16384) : EReal := roundE (hardSig (gatePre A r colZ))

/-- The three result arrays. -/
def cellOut (A : CellArgs) : (⟨2, ![16384, 512]⟩ : Shape).Idx → EReal := fun i => cellAt A (i 0) (i 1)
def hidOut (A : CellArgs) : (⟨2, ![16384, 512]⟩ : Shape).Idx → EReal := fun i => hidAt A (i 0) (i 1)
def boundaryOut (A : CellArgs) : (⟨2, ![16384, 1]⟩ : Shape).Idx → EReal := fun i => boundaryAt A (i 0)

end Cert.CellSpec

end
-- ==== Proof.KernelGates.lean ====
/-
  One grid point of the kernel, as mathematics: what the body leaves in its three output blocks is the cell of `CellSpec`
  on the 512 rows of the point's input blocks.

  The body forms the `[512, 2176]` pre-activation block as three matrix products into a zero accumulator (each entry the
  sum over the 512 contracted entries; the change of float format in front of each product is the identity on the extended
  reals), scales two of them by the rows' indicators broadcast along the columns, and adds the bias row broadcast down the
  rows: entry `(p, j)` is the gate pre-activation of row `p` and column `j` of the blocks (`preAct_entry`). The generated
  value leg reads each output block as one function of that pre-activation block at the columns `q`, `q + 512`, `q + 1024`,
  `q + 1536` and `2048`; read at an index `(p, q)` those are the cell update, the hidden update and the rounded hard sigmoid
  (`cell_entry`, `hid_entry`, `boundary_entry`). When the blocks are rows `r₀ … r₀ + 511` of the argument arrays and the
  weight blocks agree with the weights on the 2049 true columns, the pre-activation is `CellSpec.gatePre` at row `r₀ + p`
  (`gatePre_of_rows`), so the three blocks are rows `r₀ … r₀ + 511` of `hidOut`, `cellOut` and `boundaryOut`.
-/
import proofs.«139101_j45878840656512_1_alg».proof.Proof.KernelValueP
import proofs.«139101_j45878840656512_1_alg».proof.Proof.CellSpec
import Idealize.ShloMosaic.Lib.Pipeline.Value
import Idealize.ShloMosaic.Lib.ValueIdx
import Idealize.ShloMosaic.PureOps.Ideal.Laws

noncomputable section

namespace Cert.KernelGates

open Cert.KernelIdeal Cert.KernelIdeal.Gen Cert.KernelIdeal.ValueP Cert.CellSpec Idealize.ShloMosaic Idealize.ShloMosaic.ValueIdx

/-! ## A matrix product into a zero accumulator, entry by entry -/

theorem lhs_axis0 (i : S512x2176.Idx) (q : dot_S512x512_S512x2176_S512x2176_1_0_0_1_n_n.contr.Idx) :
    (dot_S512x512_S512x2176_S512x2176_1_0_0_1_n_n.lhsIdx i q 0).val = (i 0).val := by
  unfold DotDims.lhsIdx
  rw [dif_neg (show ¬(0 : Fin S512x512.rank) ∈ dot_S512x512_S512x2176_S512x2176_1_0_0_1_n_n.lhsBatch by decide), dif_pos (show (0 : Fin S512x512.rank) ∈ dot_S512x512_S512x2176_S512x2176_1_0_0_1_n_n.lhsNonContracting by decide)]
  rfl
theorem lhs_axis1 (i : S512x2176.Idx) (q : dot_S512x512_S512x2176_S512x2176_1_0_0_1_n_n.contr.Idx) :
    (dot_S512x512_S512x2176_S512x2176_1_0_0_1_n_n.lhsIdx i q 1).val = (q ⟨0, by decide⟩).val :=
  dot_S512x512_S512x2176_S512x2176_1_0_0_1_n_n.lhsIdx_val_of_single rfl i q
theorem rhs_axis0 (i : S512x2176.Idx) (q : dot_S512x512_S512x2176_S512x2176_1_0_0_1_n_n.contr.Idx) :
    (dot_S512x512_S512x2176_S512x2176_1_0_0_1_n_n.rhsIdx i q 0).val = (q ⟨0, by decide⟩).val :=
  dot_S512x512_S512x2176_S512x2176_1_0_0_1_n_n.rhsIdx_val_of_single rfl i q
theorem rhs_axis1 (i : S512x2176.Idx) (q : dot_S512x512_S512x2176_S512x2176_1_0_0_1_n_n.contr.Idx) :
    (dot_S512x512_S512x2176_S512x2176_1_0_0_1_n_n.rhsIdx i q 1).val = (i 1).val := by
  unfold DotDims.rhsIdx
  rw [dif_neg (show ¬(1 : Fin S512x2176.rank) ∈ dot_S512x512_S512x2176_S512x2176_1_0_0_1_n_n.rhsBatch by decide), dif_pos (show (1 : Fin S512x2176.rank) ∈ dot_S512x512_S512x2176_S512x2176_1_0_0_1_n_n.rhsNonContracting by decide)]
  rfl

/-- Entry `(p, j)` of a `[512, 512] × [512, 2176]` product accumulated into zero is the sum over the contracted axis. -/
theorem matmul_entry (X : FVec Ideal S512x512 .bf16) (W : FVec Ideal S512x2176 .bf16) (p : Fin 512) (j : Fin 2176) :
    matmul dot_S512x512_S512x2176_S512x2176_1_0_0_1_n_n none X W (constant S512x2176 .f32 0x00000000#32) (ix2 p j)
      = ∑ k : Fin 512, X (ix2 p k) * W (ix2 k j) := by
  show FloatOps.matmul dot_S512x512_S512x2176_S512x2176_1_0_0_1_n_n none X W (constant S512x2176 .f32 0x00000000#32) (ix2 p j) = _
  rw [Ideal.matmul_constant_zero_apply, ← Equiv.sum_comp (ValueIdx.contrEquiv1 dot_S512x512_S512x2176_S512x2176_1_0_0_1_n_n 512 rfl rfl).symm]
  refine Finset.sum_congr rfl fun k _ => ?_
  have hk := ValueIdx.contrEquiv1_symm_val dot_S512x512_S512x2176_S512x2176_1_0_0_1_n_n 512 rfl rfl k
  have el : dot_S512x512_S512x2176_S512x2176_1_0_0_1_n_n.lhsIdx (ix2 p j) ((ValueIdx.contrEquiv1 dot_S512x512_S512x2176_S512x2176_1_0_0_1_n_n 512 rfl rfl).symm k) = ix2 p k := funext fun a => Fin.ext (by
    match a with
    | ⟨0, _⟩ => exact lhs_axis0 _ _
    | ⟨1, _⟩ => exact (lhs_axis1 _ _).trans hk)
  have er : dot_S512x512_S512x2176_S512x2176_1_0_0_1_n_n.rhsIdx (ix2 p j) ((ValueIdx.contrEquiv1 dot_S512x512_S512x2176_S512x2176_1_0_0_1_n_n 512 rfl rfl).symm k) = ix2 k j := funext fun a => Fin.ext (by
    match a with
    | ⟨0, _⟩ => exact (rhs_axis0 _ _).trans hk
    | ⟨1, _⟩ => exact rhs_axis1 _ _)
  rw [el, er]

/-! ## The two broadcasts -/

/-- A `[512, 1]` column broadcast along the columns: entry `(p, j)` is the column's entry `p`. -/
theorem bcast_col (Z : S512x1.Idx → EReal) (p : Fin 512) (j : Fin 2176) :
    broadcastTo S512x2176 Z broadcasts_S512x1_S512x2176 (ix2 p j) = Z (ix2 p (0 : Fin 1)) := by
  refine broadcastTo_apply Z _ (ix2 p j) (ix2 p (0 : Fin 1)) (fun a => ?_)
  match a with
  | ⟨0, _⟩ => rfl
  | ⟨1, _⟩ => rfl

/-- A `[1, 2176]` row broadcast down the rows: entry `(p, j)` is the row's entry `j`. -/
theorem bcast_row (Bi : S1x2176.Idx → EReal) (p : Fin 512) (j : Fin 2176) :
    broadcastTo S512x2176 Bi broadcasts_S1x2176_S512x2176 (ix2 p j) = Bi (ix2 (0 : Fin 1) j) := by
  refine broadcastTo_apply Bi _ (ix2 p j) (ix2 (0 : Fin 1) j) (fun a => ?_)
  match a with
  | ⟨0, _⟩ => rfl
  | ⟨1, _⟩ => rfl

/-! ## The pre-activation block -/

/-- The pre-activation payload as its tree of vector operations. -/
theorem preAct_tree (H HB HT : FVec Ideal S512x512 .f32) (Z ZB : FVec Ideal S512x1 .f32) (Wa Wb Wc : FVec Ideal S512x2176 .bf16) (Bi : FVec Ideal S1x2176 .f32) :
    k0_pay6 (F := Ideal) H HB HT Z ZB Wa Wb Wc Bi
      = addf (addf (addf (matmul dot_S512x512_S512x2176_S512x2176_1_0_0_1_n_n none (truncf .bf16 H bitsLt_bf16_f32) (shapeCast S512x2176 Wa shapeCasts_S512x2176_S512x2176) (constant S512x2176 .f32 0x00000000#32))
            (mulf (broadcastTo S512x2176 Z broadcasts_S512x1_S512x2176) (matmul dot_S512x512_S512x2176_S512x2176_1_0_0_1_n_n none (truncf .bf16 HT bitsLt_bf16_f32) (shapeCast S512x2176 Wb shapeCasts_S512x2176_S512x2176) (constant S512x2176 .f32 0x00000000#32))))
          (mulf (broadcastTo S512x2176 ZB broadcasts_S512x1_S512x2176) (matmul dot_S512x512_S512x2176_S512x2176_1_0_0_1_n_n none (truncf .bf16 HB bitsLt_bf16_f32) (shapeCast S512x2176 Wc shapeCasts_S512x2176_S512x2176) (constant S512x2176 .f32 0x00000000#32))))
        (broadcastTo S512x2176 (shapeCast S1x2176 Bi shapeCasts_S1x2176_S1x2176) broadcasts_S1x2176_S512x2176) := rfl

/-- Entry `(p, j)` of the pre-activation block: the three inner products of row `p` with column `j`, the second and third
    scaled by the row's indicators, and the bias entry `j`, added in the body's order. -/
theorem preAct_entry (H HB HT : FVec Ideal S512x512 .f32) (Z ZB : FVec Ideal S512x1 .f32) (Wa Wb Wc : FVec Ideal S512x2176 .bf16) (Bi : FVec Ideal S1x2176 .f32)
    (p : Fin 512) (j : Fin 2176) :
    k0_pay6 (F := Ideal) H HB HT Z ZB Wa Wb Wc Bi (ix2 p j)
      = preAct (∑ k : Fin 512, H (ix2 p k) * Wa (ix2 k j)) (∑ k : Fin 512, HT (ix2 p k) * Wb (ix2 k j))
          (∑ k : Fin 512, HB (ix2 p k) * Wc (ix2 k j)) (Z (ix2 p (0 : Fin 1))) (ZB (ix2 p (0 : Fin 1))) (Bi (ix2 (0 : Fin 1) j)) := by
  rw [preAct_tree]
  simp only [addf_apply, mulf_apply, matmul_entry, bcast_col, bcast_row, shapeCast_self, truncf_apply]
  rfl

/-! ## The three output blocks at an index -/

/-- A true column as a column of the padded block. -/
def padCol (j : Fin 2049) : Fin 2176 := ⟨j.val, by have := j.isLt; omega⟩

/-- The cell-state block at `(p, q)`. -/
theorem cell_entry (Z ZB : FVec Ideal S512x1 .f32) (H HB HT Cc : FVec Ideal S512x512 .f32) (Wa Wb Wc : FVec Ideal S512x2176 .bf16) (Bi : FVec Ideal S1x2176 .f32)
    (p q : Fin 512) :
    E11 (F := Ideal) Z H HB HT ZB Wa Wb Wc Bi Cc (ix2 p q)
      = cellUpdate (Z (ix2 p (0 : Fin 1))) (ZB (ix2 p (0 : Fin 1))) (Cc (ix2 p q))
          (Ideal.logistic (k0_pay6 (F := Ideal) H HB HT Z ZB Wa Wb Wc Bi (ix2 p (padCol (colF q)))))
          (Ideal.logistic (k0_pay6 (F := Ideal) H HB HT Z ZB Wa Wb Wc Bi (ix2 p (padCol (colI q)))))
          (Ideal.tanh (k0_pay6 (F := Ideal) H HB HT Z ZB Wa Wb Wc Bi (ix2 p (padCol (colG q))))) := by
  have c0 : ∀ (f : S512x512.Idx → S512x1.Idx), (∀ y, ((f y) 0).val = (y 0).val) → f (ix2 p q) = ix2 p (0 : Fin 1) := fun f hf =>
    funext fun a => by
      match a with
      | ⟨0, _⟩ => exact Fin.ext (hf _)
      | ⟨1, _⟩ => exact Fin.ext (by have h1 : ((f (ix2 p q)) 1).val < 1 := ((f (ix2 p q)) 1).isLt; show ((f (ix2 p q)) 1).val = 0; omega)
  have e0 : ix11_0 (ix2 p q) = ix2 p (0 : Fin 1) := c0 _ fun _ => rfl
  have e3 : ix11_3 (ix2 p q) = ix2 p (0 : Fin 1) := c0 _ fun _ => rfl
  have e4 : ix11_4 (ix2 p q) = ix2 p (0 : Fin 1) := c0 _ fun _ => rfl
  have e6 : ix11_6 (ix2 p q) = ix2 p (0 : Fin 1) := c0 _ fun _ => rfl
  have e7 : ix11_7 (ix2 p q) = ix2 p (0 : Fin 1) := c0 _ fun _ => rfl
  have e5 : ix11_5 (ix2 p q) = ix2 p q := funext fun a => by match a with | ⟨0, _⟩ => rfl | ⟨1, _⟩ => rfl
  have e9 : ix11_9 (ix2 p q) = ix2 p q := funext fun a => by match a with | ⟨0, _⟩ => rfl | ⟨1, _⟩ => rfl
  have e1 : ix11_1 (ix2 p q) = ix2 p (padCol (colI q)) := funext fun a => by
    match a with | ⟨0, _⟩ => rfl | ⟨1, _⟩ => exact Fin.ext (Nat.add_comm _ _)
  have e10 : ix11_10 (ix2 p q) = ix2 p (padCol (colI q)) := funext fun a => by
    match a with | ⟨0, _⟩ => rfl | ⟨1, _⟩ => exact Fin.ext (Nat.add_comm _ _)
  have e2 : ix11_2 (ix2 p q) = ix2 p (padCol (colG q)) := funext fun a => by
    match a with | ⟨0, _⟩ => rfl | ⟨1, _⟩ => exact Fin.ext (Nat.add_comm _ _)
  have e11 : ix11_11 (ix2 p q) = ix2 p (padCol (colG q)) := funext fun a => by
    match a with | ⟨0, _⟩ => rfl | ⟨1, _⟩ => exact Fin.ext (Nat.add_comm _ _)
  have e8 : ix11_8 (ix2 p q) = ix2 p (padCol (colF q)) := funext fun a => by
    match a with | ⟨0, _⟩ => rfl | ⟨1, _⟩ => rfl
  show FloatOps.addf _ _ = _
  rw [e0, e1, e2, e3, e4, e5, e6, e7, e8, e9, e10, e11]
  rfl

/-- The hidden-state block at `(p, q)`. -/
theorem hid_entry (Z ZB : FVec Ideal S512x1 .f32) (H HB HT Cc : FVec Ideal S512x512 .f32) (Wa Wb Wc : FVec Ideal S512x2176 .bf16) (Bi : FVec Ideal S1x2176 .f32)
    (p q : Fin 512) :
    E10 (F := Ideal) Z ZB H HB HT Wa Wb Wc Bi Cc (ix2 p q)
      = hidUpdate (Z (ix2 p (0 : Fin 1))) (ZB (ix2 p (0 : Fin 1))) (H (ix2 p q))
          (Ideal.logistic (k0_pay6 (F := Ideal) H HB HT Z ZB Wa Wb Wc Bi (ix2 p (padCol (colO q)))))
          (cellUpdate (Z (ix2 p (0 : Fin 1))) (ZB (ix2 p (0 : Fin 1))) (Cc (ix2 p q))
            (Ideal.logistic (k0_pay6 (F := Ideal) H HB HT Z ZB Wa Wb Wc Bi (ix2 p (padCol (colF q)))))
            (Ideal.logistic (k0_pay6 (F := Ideal) H HB HT Z ZB Wa Wb Wc Bi (ix2 p (padCol (colI q)))))
            (Ideal.tanh (k0_pay6 (F := Ideal) H HB HT Z ZB Wa Wb Wc Bi (ix2 p (padCol (colG q)))))) := by
  have c0 : ∀ (f : S512x512.Idx → S512x1.Idx), (∀ y, ((f y) 0).val = (y 0).val) → f (ix2 p q) = ix2 p (0 : Fin 1) := fun f hf =>
    funext fun a => by
      match a with
      | ⟨0, _⟩ => exact Fin.ext (hf _)
      | ⟨1, _⟩ => exact Fin.ext (by have h1 : ((f (ix2 p q)) 1).val < 1 := ((f (ix2 p q)) 1).isLt; show ((f (ix2 p q)) 1).val = 0; omega)
  have e0 : ix10_0 (ix2 p q) = ix2 p (0 : Fin 1) := c0 _ fun _ => rfl
  have e1 : ix10_1 (ix2 p q) = ix2 p (0 : Fin 1) := c0 _ fun _ => rfl
  have e3 : ix10_3 (ix2 p q) = ix2 p (0 : Fin 1) := c0 _ fun _ => rfl
  have e4 : ix10_4 (ix2 p q) = ix2 p (0 : Fin 1) := c0 _ fun _ => rfl
  have e5 : ix10_5 (ix2 p q) = ix2 p (0 : Fin 1) := c0 _ fun _ => rfl
  have e7 : ix10_7 (ix2 p q) = ix2 p (0 : Fin 1) := c0 _ fun _ => rfl
  have e10 : ix10_10 (ix2 p q) = ix2 p (0 : Fin 1) := c0 _ fun _ => rfl
  have e11 : ix10_11 (ix2 p q) = ix2 p (0 : Fin 1) := c0 _ fun _ => rfl
  have e13 : ix10_13 (ix2 p q) = ix2 p (0 : Fin 1) := c0 _ fun _ => rfl
  have e14 : ix10_14 (ix2 p q) = ix2 p (0 : Fin 1) := c0 _ fun _ => rfl
  have e2 : ix10_2 (ix2 p q) = ix2 p q := funext fun a => by match a with | ⟨0, _⟩ => rfl | ⟨1, _⟩ => rfl
  have e12 : ix10_12 (ix2 p q) = ix2 p q := funext fun a => by match a with | ⟨0, _⟩ => rfl | ⟨1, _⟩ => rfl
  have e16 : ix10_16 (ix2 p q) = ix2 p q := funext fun a => by match a with | ⟨0, _⟩ => rfl | ⟨1, _⟩ => rfl
  have e6 : ix10_6 (ix2 p q) = ix2 p (padCol (colO q)) := funext fun a => by
    match a with | ⟨0, _⟩ => rfl | ⟨1, _⟩ => exact Fin.ext (Nat.add_comm _ _)
  have e8 : ix10_8 (ix2 p q) = ix2 p (padCol (colI q)) := funext fun a => by
    match a with | ⟨0, _⟩ => rfl | ⟨1, _⟩ => exact Fin.ext (Nat.add_comm _ _)
  have e17 : ix10_17 (ix2 p q) = ix2 p (padCol (colI q)) := funext fun a => by
    match a with | ⟨0, _⟩ => rfl | ⟨1, _⟩ => exact Fin.ext (Nat.add_comm _ _)
  have e9 : ix10_9 (ix2 p q) = ix2 p (padCol (colG q)) := funext fun a => by
    match a with | ⟨0, _⟩ => rfl | ⟨1, _⟩ => exact Fin.ext (Nat.add_comm _ _)
  have e18 : ix10_18 (ix2 p q) = ix2 p (padCol (colG q)) := funext fun a => by
    match a with | ⟨0, _⟩ => rfl | ⟨1, _⟩ => exact Fin.ext (Nat.add_comm _ _)
  have e15 : ix10_15 (ix2 p q) = ix2 p (padCol (colF q)) := funext fun a => by
    match a with | ⟨0, _⟩ => rfl | ⟨1, _⟩ => rfl
  show FloatOps.addf _ _ = _
  rw [e0, e1, e2, e3, e4, e5, e6, e7, e8, e9, e10, e11, e12, e13, e14, e15, e16, e17, e18]
  rfl

/-- The boundary block at row `p`. -/
theorem boundary_entry (Z ZB : FVec Ideal S512x1 .f32) (H HB HT : FVec Ideal S512x512 .f32) (Wa Wb Wc : FVec Ideal S512x2176 .bf16) (Bi : FVec Ideal S1x2176 .f32)
    (p : Fin 512) :
    E12 (F := Ideal) H HB HT Z ZB Wa Wb Wc Bi (ix2 p (0 : Fin 1))
      = roundE (hardSig (k0_pay6 (F := Ideal) H HB HT Z ZB Wa Wb Wc Bi (ix2 p (padCol colZ)))) := by
  have e0 : ix12_0 (ix2 p (0 : Fin 1)) = ix2 p (padCol colZ) := funext fun a => by
    match a with | ⟨0, _⟩ => rfl | ⟨1, _⟩ => rfl
  show FloatOps.roundeven _ = _
  rw [e0]
  rfl

/-! ## Blocks that are rows of the argument arrays -/

/-- Row `p` of a block that starts at row `r₀`. -/
def rowAt (r₀ : Nat) (hr : r₀ + 512 ≤ 16384) (p : Fin 512) : Fin 16384 := ⟨r₀ + p.val, by have := p.isLt; omega⟩

/-- The point's input blocks are rows `r₀ … r₀ + 511` of the argument arrays, the weight and bias blocks agree with the
    weights and the bias on the true columns. -/
structure RowsOf (A : CellArgs) (r₀ : Nat) (hr : r₀ + 512 ≤ 16384) (Z ZB : FVec Ideal S512x1 .f32) (H HB HT Cc : FVec Ideal S512x512 .f32)
    (Wa Wb Wc : FVec Ideal S512x2176 .bf16) (Bi : FVec Ideal S1x2176 .f32) : Prop where
  hZ : ∀ p : Fin 512, Z (ix2 p (0 : Fin 1)) = A.z (ix2 (rowAt r₀ hr p) (0 : Fin 1))
  hZB : ∀ p : Fin 512, ZB (ix2 p (0 : Fin 1)) = A.zb (ix2 (rowAt r₀ hr p) (0 : Fin 1))
  hH : ∀ p k : Fin 512, H (ix2 p k) = A.h (ix2 (rowAt r₀ hr p) k)
  hHB : ∀ p k : Fin 512, HB (ix2 p k) = A.hb (ix2 (rowAt r₀ hr p) k)
  hHT : ∀ p k : Fin 512, HT (ix2 p k) = A.ht (ix2 (rowAt r₀ hr p) k)
  hC : ∀ p k : Fin 512, Cc (ix2 p k) = A.c (ix2 (rowAt r₀ hr p) k)
  hWa : ∀ (k : Fin 512) (j : Fin 2049), Wa (ix2 k (padCol j)) = A.U11 (ix2 k j)
  hWb : ∀ (k : Fin 512) (j : Fin 2049), Wb (ix2 k (padCol j)) = A.U21 (ix2 k j)
  hWc : ∀ (k : Fin 512) (j : Fin 2049), Wc (ix2 k (padCol j)) = A.W01 (ix2 k j)
  hBi : ∀ j : Fin 2049, Bi (ix2 (0 : Fin 1) (padCol j)) = A.bias (ix1 j)

variable {A : CellArgs} {r₀ : Nat} {hr : r₀ + 512 ≤ 16384} {Z ZB : FVec Ideal S512x1 .f32} {H HB HT Cc : FVec Ideal S512x512 .f32}
  {Wa Wb Wc : FVec Ideal S512x2176 .bf16} {Bi : FVec Ideal S1x2176 .f32}

/-- On such blocks the pre-activation block at a true column is the gate pre-activation of the row. -/
theorem gatePre_of_rows (R : RowsOf A r₀ hr Z ZB H HB HT Cc Wa Wb Wc Bi) (p : Fin 512) (j : Fin 2049) :
    k0_pay6 (F := Ideal) H HB HT Z ZB Wa Wb Wc Bi (ix2 p (padCol j)) = gatePre A (rowAt r₀ hr p) j := by
  rw [preAct_entry]
  unfold gatePre
  simp only [R.hZ, R.hZB, R.hH, R.hHB, R.hHT, R.hWa, R.hWb, R.hWc, R.hBi]

theorem cell_of_rows (R : RowsOf A r₀ hr Z ZB H HB HT Cc Wa Wb Wc Bi) (p q : Fin 512) :
    E11 (F := Ideal) Z H HB HT ZB Wa Wb Wc Bi Cc (ix2 p q) = cellAt A (rowAt r₀ hr p) q := by
  rw [cell_entry, gatePre_of_rows R, gatePre_of_rows R, gatePre_of_rows R, R.hZ, R.hZB, R.hC]
  rfl

theorem hid_of_rows (R : RowsOf A r₀ hr Z ZB H HB HT Cc Wa Wb Wc Bi) (p q : Fin 512) :
    E10 (F := Ideal) Z ZB H HB HT Wa Wb Wc Bi Cc (ix2 p q) = hidAt A (rowAt r₀ hr p) q := by
  rw [hid_entry, gatePre_of_rows R, gatePre_of_rows R, gatePre_of_rows R, gatePre_of_rows R, R.hZ, R.hZB, R.hC, R.hH]
  rfl

theorem boundary_of_rows (R : RowsOf A r₀ hr Z ZB H HB HT Cc Wa Wb Wc Bi) (p : Fin 512) :
    E12 (F := Ideal) H HB HT Z ZB Wa Wb Wc Bi (ix2 p (0 : Fin 1)) = boundaryAt A (rowAt r₀ hr p) := by
  rw [boundary_entry, gatePre_of_rows R]
  rfl

/-! ## The frame's output blocks are the value leg's index-by-index functions -/

theorem hz : (![0, 0] : Fin 2 → Nat) = fun _ => 0 := funext fun a => by fin_cases a <;> rfl

/-- What the body leaves in the hidden-state window, from the ten input blocks. -/
theorem hid_block (x0 x1 x2 x3 : FVec Ideal S512x512 .f32) (x4 x5 : FVec Ideal S512x1 .f32) (x6 x7 x8 : FVec Ideal S512x2176 .bf16) (x9 : FVec Ideal S1x2176 .f32) :
    out0_10 (F := Ideal) x0 x1 x2 x3 x4 x5 x6 x7 x8 x9 = E10 (F := Ideal) x4 x5 x2 x1 x3 x6 x7 x8 x9 x0 := by
  funext y
  unfold out0_10
  rw [canon10_eq]
  simp only [View.ld_unit_zero (S := S512x512) hz, View.ld_unit_zero (S := S512x1) hz, View.ld_unit_zero (S := S512x2176) hz, View.ld_unit_zero (S := S1x2176) hz]

/-- What the body leaves in the cell-state window. -/
theorem cell_block (x0 x1 x2 x3 : FVec Ideal S512x512 .f32) (x4 x5 : FVec Ideal S512x1 .f32) (x6 x7 x8 : FVec Ideal S512x2176 .bf16) (x9 : FVec Ideal S1x2176 .f32) :
    out0_11 (F := Ideal) x0 x1 x2 x3 x4 x5 x6 x7 x8 x9 = E11 (F := Ideal) x4 x2 x1 x3 x5 x6 x7 x8 x9 x0 := by
  funext y
  unfold out0_11
  rw [canon11_eq]
  simp only [View.ld_unit_zero (S := S512x512) hz, View.ld_unit_zero (S := S512x1) hz, View.ld_unit_zero (S := S512x2176) hz, View.ld_unit_zero (S := S1x2176) hz]

/-- What the body leaves in the boundary window. -/
theorem boundary_block (x0 x1 x2 x3 : FVec Ideal S512x512 .f32) (x4 x5 : FVec Ideal S512x1 .f32) (x6 x7 x8 : FVec Ideal S512x2176 .bf16) (x9 : FVec Ideal S1x2176 .f32) :
    out0_12 (F := Ideal) x0 x1 x2 x3 x4 x5 x6 x7 x8 x9 = E12 (F := Ideal) x2 x1 x3 x4 x5 x6 x7 x8 x9 := by
  funext y
  unfold out0_12
  rw [canon12_eq]
  simp only [View.ld_unit_zero (S := S512x512) hz, View.ld_unit_zero (S := S512x1) hz, View.ld_unit_zero (S := S512x2176) hz, View.ld_unit_zero (S := S1x2176) hz]

end Cert.KernelGates

end
-- ==== Proof.KernelArrays.lean ====
/-
  The kernel's three result arrays, whole: after the 32 grid points the arrays hold `hidOut`, `cellOut` and `boundaryOut` of
  the ten argument arrays.

  Point `t` of the grid stages rows `512·t … 512·t + 511` of the four state arrays and of the two indicator columns, and
  every point stages the three weight arrays and the bias whole. The weights the region finds were made on the way in: each
  `[512, 2049]` argument padded with 127 zero columns to `[512, 2176]` (and changed in float format, the identity here),
  the bias padded likewise and laid out as one row; at a true column `j < 2049` the padded array holds the argument's
  entry. So the point's blocks are `RowsOf` the arguments at `r₀ = 512·t`, what the point writes back is rows
  `512·t … 512·t + 511` of the three results, and the 32 blocks of each output tile its array: row `r` lies in block `r / 512`.
-/
import proofs.«139101_j45878840656512_1_alg».proof.Proof.KernelGates
import Idealize.ShloMosaic.Lib.KernelVsHost
import Idealize.ShloMosaic.Lib.StableHlo.Run
import Idealize.ShloMosaic.Lib.Pipeline.Value

noncomputable section

namespace Cert.KernelArrays

open Cert.KernelIdeal Cert.KernelIdeal.Gen Cert.KernelIdeal.ValueP Cert.CellSpec Cert.KernelGates
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-- The ten argument arrays as launched on core `c`. -/
def args (c : Dev nD) : CellArgs where
  c := (m ((c : Thread nD τ).loc main_arg0))
  hb := (m ((c : Thread nD τ).loc main_arg1))
  h := (m ((c : Thread nD τ).loc main_arg2))
  ht := (m ((c : Thread nD τ).loc main_arg3))
  z := (m ((c : Thread nD τ).loc main_arg4))
  zb := (m ((c : Thread nD τ).loc main_arg5))
  U11 := (m ((c : Thread nD τ).loc main_arg6))
  U21 := (m ((c : Thread nD τ).loc main_arg7))
  W01 := (m ((c : Thread nD τ).loc main_arg8))
  bias := (m ((c : Thread nD τ).loc main_arg9))

/-! ## The index maps, decided over the grid -/

/-- The windows over the state arrays, the indicator columns and the three results move down the rows with the point. -/
theorem idx_moving : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_10.index t (0 : Fin 2) = t.val ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0) :=
  (by decide +kernel : ∀ t : Fin grid0.N, _)

/-- The windows over the weights and the bias stay on their one block. -/
theorem idx_resident : ∀ t : Fin cfg0.N,
    (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

theorem point_lt (t : Fin cfg0.N) : t.val < 32 := by
  exact lt_of_lt_of_eq t.isLt N_0

theorem row_bound (t : Fin cfg0.N) : t.val * 512 + 512 ≤ 16384 := by
  have := point_lt t
  omega

/-! ## The input blocks as rows of the arguments -/

/-- The cell-state block at point `t` is rows `512·t …` of the argument. -/
theorem read_c (c : Dev nD) (t : Fin cfg0.N) (p k : Fin 512) :
    (iblk m c 0 t : FVec Ideal S512x512 .f32) (ix2 p k) = (args m c).c (ix2 (rowAt (t.val * 512) (row_bound t) p) k) := by
  show V m c main_arg0 (((cfg0.win 0).blk t).view.emb (ix2 p k)) = _
  refine (congrFun (V_main_arg0 m c) _).trans ?_
  refine congrArg (m ((c : Thread nD τ).loc main_arg0)) (funext fun a => Fin.ext ?_)
  have h0 : win0_0.index t (0 : Fin 2) = t.val := (idx_moving t).1.1
  have h1 : win0_0.index t (1 : Fin 2) = 0 := (idx_moving t).1.2
  match a with
  | ⟨0, _⟩ => show win0_0.index t (0 : Fin 2) * 512 + 1 * p.val = t.val * 512 + p.val; rw [h0]; omega
  | ⟨1, _⟩ => show win0_0.index t (1 : Fin 2) * 512 + 1 * k.val = k.val; rw [h1]; omega

/-- The block of the layer below. -/
theorem read_hb (c : Dev nD) (t : Fin cfg0.N) (p k : Fin 512) :
    (iblk m c 1 t : FVec Ideal S512x512 .f32) (ix2 p k) = (args m c).hb (ix2 (rowAt (t.val * 512) (row_bound t) p) k) := by
  show V m c main_arg1 (((cfg0.win 1).blk t).view.emb (ix2 p k)) = _
  refine (congrFun (V_main_arg1 m c) _).trans ?_
  refine congrArg (m ((c : Thread nD τ).loc main_arg1)) (funext fun a => Fin.ext ?_)
  have h0 : win0_1.index t (0 : Fin 2) = t.val := (idx_moving t).2.1.1
  have h1 : win0_1.index t (1 : Fin 2) = 0 := (idx_moving t).2.1.2
  match a with
  | ⟨0, _⟩ => show win0_1.index t (0 : Fin 2) * 512 + 1 * p.val = t.val * 512 + p.val; rw [h0]; omega
  | ⟨1, _⟩ => show win0_1.index t (1 : Fin 2) * 512 + 1 * k.val = k.val; rw [h1]; omega

/-- The hidden-state block. -/
theorem read_h (c : Dev nD) (t : Fin cfg0.N) (p k : Fin 512) :
    (iblk m c 2 t : FVec Ideal S512x512 .f32) (ix2 p k) = (args m c).h (ix2 (rowAt (t.val * 512) (row_bound t) p) k) := by
  show V m c main_arg2 (((cfg0.win 2).blk t).view.emb (ix2 p k)) = _
  refine (congrFun (V_main_arg2 m c) _).trans ?_
  refine congrArg (m ((c : Thread nD τ).loc main_arg2)) (funext fun a => Fin.ext ?_)
  have h0 : win0_2.index t (0 : Fin 2) = t.val := (idx_moving t).2.2.1.1
  have h1 : win0_2.index t (1 : Fin 2) = 0 := (idx_moving t).2.2.1.2
  match a with
  | ⟨0, _⟩ => show win0_2.index t (0 : Fin 2) * 512 + 1 * p.val = t.val * 512 + p.val; rw [h0]; omega
  | ⟨1, _⟩ => show win0_2.index t (1 : Fin 2) * 512 + 1 * k.val = k.val; rw [h1]; omega

/-- The block of the layer above. -/
theorem read_ht (c : Dev nD) (t : Fin cfg0.N) (p k : Fin 512) :
    (iblk m c 3 t : FVec Ideal S512x512 .f32) (ix2 p k) = (args m c).ht (ix2 (rowAt (t.val * 512) (row_bound t) p) k) := by
  show V m c main_arg3 (((cfg0.win 3).blk t).view.emb (ix2 p k)) = _
  refine (congrFun (V_main_arg3 m c) _).trans ?_
  refine congrArg (m ((c : Thread nD τ).loc main_arg3)) (funext fun a => Fin.ext ?_)
  have h0 : win0_3.index t (0 : Fin 2) = t.val := (idx_moving t).2.2.2.1.1
  have h1 : win0_3.index t (1 : Fin 2) = 0 := (idx_moving t).2.2.2.1.2
  match a with
  | ⟨0, _⟩ => show win0_3.index t (0 : Fin 2) * 512 + 1 * p.val = t.val * 512 + p.val; rw [h0]; omega
  | ⟨1, _⟩ => show win0_3.index t (1 : Fin 2) * 512 + 1 * k.val = k.val; rw [h1]; omega

/-- The indicator block. -/
theorem read_z (c : Dev nD) (t : Fin cfg0.N) (p : Fin 512) :
    (iblk m c 4 t : FVec Ideal S512x1 .f32) (ix2 p (0 : Fin 1)) = (args m c).z (ix2 (rowAt (t.val * 512) (row_bound t) p) (0 : Fin 1)) := by
  show V m c main_arg4 (((cfg0.win 4).blk t).view.emb (ix2 p (0 : Fin 1))) = _
  refine (congrFun (V_main_arg4 m c) _).trans ?_
  refine congrArg (m ((c : Thread nD τ).loc main_arg4)) (funext fun a => Fin.ext ?_)
  have h0 : win0_4.index t (0 : Fin 2) = t.val := (idx_moving t).2.2.2.2.1.1
  have h1 : win0_4.index t (1 : Fin 2) = 0 := (idx_moving t).2.2.2.2.1.2
  match a with
  | ⟨0, _⟩ => show win0_4.index t (0 : Fin 2) * 512 + 1 * p.val = t.val * 512 + p.val; rw [h0]; omega
  | ⟨1, _⟩ => show win0_4.index t (1 : Fin 2) * 1 + 1 * 0 = 0; rw [h1]

/-- The block of the indicator from below. -/
theorem read_zb (c : Dev nD) (t : Fin cfg0.N) (p : Fin 512) :
    (iblk m c 5 t : FVec Ideal S512x1 .f32) (ix2 p (0 : Fin 1)) = (args m c).zb (ix2 (rowAt (t.val * 512) (row_bound t) p) (0 : Fin 1)) := by
  show V m c main_arg5 (((cfg0.win 5).blk t).view.emb (ix2 p (0 : Fin 1))) = _
  refine (congrFun (V_main_arg5 m c) _).trans ?_
  refine congrArg (m ((c : Thread nD τ).loc main_arg5)) (funext fun a => Fin.ext ?_)
  have h0 : win0_5.index t (0 : Fin 2) = t.val := (idx_moving t).2.2.2.2.2.1.1
  have h1 : win0_5.index t (1 : Fin 2) = 0 := (idx_moving t).2.2.2.2.2.1.2
  match a with
  | ⟨0, _⟩ => show win0_5.index t (0 : Fin 2) * 512 + 1 * p.val = t.val * 512 + p.val; rw [h0]; omega
  | ⟨1, _⟩ => show win0_5.index t (1 : Fin 2) * 1 + 1 * 0 = 0; rw [h1]

/-! ## The padded weights and bias at a true column -/

/-- The recurrent weights as the region finds them, at a true column. -/
theorem read_U11 (c : Dev nD) (t : Fin cfg0.N) (k : Fin 512) (j : Fin 2049) :
    (iblk m c 6 t : FVec Ideal S512x2176 .bf16) (ix2 k (padCol j)) = (args m c).U11 (ix2 k j) := by
  show V m c main_v1 (((cfg0.win 6).blk t).view.emb (ix2 k (padCol j))) = _
  have h0 : win0_6.index t (0 : Fin 2) = 0 := (idx_resident t).1.1
  have h1 : win0_6.index t (1 : Fin 2) = 0 := (idx_resident t).1.2
  have e : (((cfg0.win 6).blk t).view.emb (ix2 k (padCol j)) : S512x2176.Idx) = ix2 k (padCol j) := funext fun a => Fin.ext (by
    match a with
    | ⟨0, _⟩ => show win0_6.index t (0 : Fin 2) * 512 + 1 * k.val = k.val; rw [h0]; omega
    | ⟨1, _⟩ => show win0_6.index t (1 : Fin 2) * 2176 + 1 * (padCol j).val = (padCol j).val; rw [h1]; omega)
  have hV : (V m c main_v1 : S512x2176.Idx → EReal)
      = (truncf (F := Ideal) .bf16 (pad S512x2176 ![0, 0] ![0, 127] ![0, 0] ((m ((c : Thread nD τ).loc main_arg6)) : S512x2049.Idx → EReal) (sitofp (F := Ideal) .f32 (constantI S_ 32 0#32) : S_.Idx → EReal) pads_S512x2049_S512x2176_000_01270 h_S_) bitsLt_bf16_f32 : S512x2176.Idx → EReal) := by
    dsimp only [V]
    simp only [hostOps0, hostOps0_1, hostOps0_2, hostOps0_3, hostOps0_4, hostOps0_5, hostOps0_6, hostOps0_7, hostOps0_8, List.flatten_cons, List.flatten_nil, List.append_nil, List.cons_append, List.nil_append]
    after_results
    rfl
  refine (congrArg (V m c main_v1 : S512x2176.Idx → EReal) e).trans ?_
  refine (congrFun hV _).trans ?_
  show pad S512x2176 ![0, 0] ![0, 127] ![0, 0] ((m ((c : Thread nD τ).loc main_arg6)) : S512x2049.Idx → EReal) (sitofp (F := Ideal) .f32 (constantI S_ 32 0#32) : S_.Idx → EReal) pads_S512x2049_S512x2176_000_01270 h_S_ (ix2 k (padCol j)) = _
  refine pad_apply_of_inside _ _ _ _ _ _ _ (ix2 k (padCol j)) (ix2 k j) (fun a => ?_)
  match a with
  | ⟨0, _⟩ => show k.val = 0 + k.val * (0 + 1); omega
  | ⟨1, _⟩ => show j.val = 0 + j.val * (0 + 1); omega

/-- The top-down weights. -/
theorem read_U21 (c : Dev nD) (t : Fin cfg0.N) (k : Fin 512) (j : Fin 2049) :
    (iblk m c 7 t : FVec Ideal S512x2176 .bf16) (ix2 k (padCol j)) = (args m c).U21 (ix2 k j) := by
  show V m c main_v3 (((cfg0.win 7).blk t).view.emb (ix2 k (padCol j))) = _
  have h0 : win0_7.index t (0 : Fin 2) = 0 := (idx_resident t).2.1.1
  have h1 : win0_7.index t (1 : Fin 2) = 0 := (idx_resident t).2.1.2
  have e : (((cfg0.win 7).blk t).view.emb (ix2 k (padCol j)) : S512x2176.Idx) = ix2 k (padCol j) := funext fun a => Fin.ext (by
    match a with
    | ⟨0, _⟩ => show win0_7.index t (0 : Fin 2) * 512 + 1 * k.val = k.val; rw [h0]; omega
    | ⟨1, _⟩ => show win0_7.index t (1 : Fin 2) * 2176 + 1 * (padCol j).val = (padCol j).val; rw [h1]; omega)
  have hV : (V m c main_v3 : S512x2176.Idx → EReal)
      = (truncf (F := Ideal) .bf16 (pad S512x2176 ![0, 0] ![0, 127] ![0, 0] ((m ((c : Thread nD τ).loc main_arg7)) : S512x2049.Idx → EReal) (sitofp (F := Ideal) .f32 (constantI S_ 32 0#32) : S_.Idx → EReal) pads_S512x2049_S512x2176_000_01270 h_S_) bitsLt_bf16_f32 : S512x2176.Idx → EReal) := by
    dsimp only [V]
    simp only [hostOps0, hostOps0_1, hostOps0_2, hostOps0_3, hostOps0_4, hostOps0_5, hostOps0_6, hostOps0_7, hostOps0_8, List.flatten_cons, List.flatten_nil, List.append_nil, List.cons_append, List.nil_append]
    after_results
    rfl
  refine (congrArg (V m c main_v3 : S512x2176.Idx → EReal) e).trans ?_
  refine (congrFun hV _).trans ?_
  show pad S512x2176 ![0, 0] ![0, 127] ![0, 0] ((m ((c : Thread nD τ).loc main_arg7)) : S512x2049.Idx → EReal) (sitofp (F := Ideal) .f32 (constantI S_ 32 0#32) : S_.Idx → EReal) pads_S512x2049_S512x2176_000_01270 h_S_ (ix2 k (padCol j)) = _
  refine pad_apply_of_inside _ _ _ _ _ _ _ (ix2 k (padCol j)) (ix2 k j) (fun a => ?_)
  match a with
  | ⟨0, _⟩ => show k.val = 0 + k.val * (0 + 1); omega
  | ⟨1, _⟩ => show j.val = 0 + j.val * (0 + 1); omega

/-- The bottom-up weights. -/
theorem read_W01 (c : Dev nD) (t : Fin cfg0.N) (k : Fin 512) (j : Fin 2049) :
    (iblk m c 8 t : FVec Ideal S512x2176 .bf16) (ix2 k (padCol j)) = (args m c).W01 (ix2 k j) := by
  show V m c main_v5 (((cfg0.win 8).blk t).view.emb (ix2 k (padCol j))) = _
  have h0 : win0_8.index t (0 : Fin 2) = 0 := (idx_resident t).2.2.1.1
  have h1 : win0_8.index t (1 : Fin 2) = 0 := (idx_resident t).2.2.1.2
  have e : (((cfg0.win 8).blk t).view.emb (ix2 k (padCol j)) : S512x2176.Idx) = ix2 k (padCol j) := funext fun a => Fin.ext (by
    match a with
    | ⟨0, _⟩ => show win0_8.index t (0 : Fin 2) * 512 + 1 * k.val = k.val; rw [h0]; omega
    | ⟨1, _⟩ => show win0_8.index t (1 : Fin 2) * 2176 + 1 * (padCol j).val = (padCol j).val; rw [h1]; omega)
  have hV : (V m c main_v5 : S512x2176.Idx → EReal)
      = (truncf (F := Ideal) .bf16 (pad S512x2176 ![0, 0] ![0, 127] ![0, 0] ((m ((c : Thread nD τ).loc main_arg8)) : S512x2049.Idx → EReal) (sitofp (F := Ideal) .f32 (constantI S_ 32 0#32) : S_.Idx → EReal) pads_S512x2049_S512x2176_000_01270 h_S_) bitsLt_bf16_f32 : S512x2176.Idx → EReal) := by
    dsimp only [V]
    simp only [hostOps0, hostOps0_1, hostOps0_2, hostOps0_3, hostOps0_4, hostOps0_5, hostOps0_6, hostOps0_7, hostOps0_8, List.flatten_cons, List.flatten_nil, List.append_nil, List.cons_append, List.nil_append]
    after_results
    rfl
  refine (congrArg (V m c main_v5 : S512x2176.Idx → EReal) e).trans ?_
  refine (congrFun hV _).trans ?_
  show pad S512x2176 ![0, 0] ![0, 127] ![0, 0] ((m ((c : Thread nD τ).loc main_arg8)) : S512x2049.Idx → EReal) (sitofp (F := Ideal) .f32 (constantI S_ 32 0#32) : S_.Idx → EReal) pads_S512x2049_S512x2176_000_01270 h_S_ (ix2 k (padCol j)) = _
  refine pad_apply_of_inside _ _ _ _ _ _ _ (ix2 k (padCol j)) (ix2 k j) (fun a => ?_)
  match a with
  | ⟨0, _⟩ => show k.val = 0 + k.val * (0 + 1); omega
  | ⟨1, _⟩ => show j.val = 0 + j.val * (0 + 1); omega

/-- The bias row as the region finds it, at a true column. -/
theorem read_bias (c : Dev nD) (t : Fin cfg0.N) (j : Fin 2049) :
    (iblk m c 9 t : FVec Ideal S1x2176 .f32) (ix2 (0 : Fin 1) (padCol j)) = (args m c).bias (ix1 j) := by
  show V m c main_v7 (((cfg0.win 9).blk t).view.emb (ix2 (0 : Fin 1) (padCol j))) = _
  have h0 : win0_9.index t (0 : Fin 2) = 0 := (idx_resident t).2.2.2.1
  have h1 : win0_9.index t (1 : Fin 2) = 0 := (idx_resident t).2.2.2.2
  have e : (((cfg0.win 9).blk t).view.emb (ix2 (0 : Fin 1) (padCol j)) : S1x2176.Idx) = ix2 (0 : Fin 1) (padCol j) := funext fun a => Fin.ext (by
    match a with
    | ⟨0, _⟩ => show win0_9.index t (0 : Fin 2) * 1 + 1 * 0 = 0; rw [h0]
    | ⟨1, _⟩ => show win0_9.index t (1 : Fin 2) * 2176 + 1 * (padCol j).val = (padCol j).val; rw [h1]; omega)
  have hV : (V m c main_v7 : S1x2176.Idx → EReal)
      = (shapeCast S1x2176 (pad S2176 ![0] ![127] ![0] ((m ((c : Thread nD τ).loc main_arg9)) : S2049.Idx → EReal) (sitofp (F := Ideal) .f32 (constantI S_ 32 0#32) : S_.Idx → EReal) pads_S2049_S2176_01270 h_S_) shapeCasts_S2176_S1x2176 : S1x2176.Idx → EReal) := by
    dsimp only [V]
    simp only [hostOps0, hostOps0_1, hostOps0_2, hostOps0_3, hostOps0_4, hostOps0_5, hostOps0_6, hostOps0_7, hostOps0_8, List.flatten_cons, List.flatten_nil, List.append_nil, List.cons_append, List.nil_append]
    after_results
    rfl
  refine (congrArg (V m c main_v7 : S1x2176.Idx → EReal) e).trans ?_
  refine (congrFun hV _).trans ?_
  refine (shapeCast_apply _ _ (ix2 (0 : Fin 1) (padCol j)) (ix1 (padCol j)) (by
    rw [Shape.rowMajor_val_one, Shape.rowMajor_val_two]
    show (padCol j).val = 0 * 2176 + (padCol j).val
    omega)).trans ?_
  refine pad_apply_of_inside _ _ _ _ _ _ _ (ix1 (padCol j)) (ix1 j) (fun a => ?_)
  match a with
  | ⟨0, _⟩ => show j.val = 0 + j.val * (0 + 1); omega

/-- At point `t` the ten input blocks are rows `512·t … 512·t + 511` of the arguments. -/
theorem rows_at (c : Dev nD) (t : Fin cfg0.N) :
    RowsOf (args m c) (t.val * 512) (row_bound t) (iblk m c 4 t) (iblk m c 5 t) (iblk m c 2 t) (iblk m c 1 t) (iblk m c 3 t) (iblk m c 0 t)
      (iblk m c 6 t) (iblk m c 7 t) (iblk m c 8 t) (iblk m c 9 t) where
  hZ := read_z m c t
  hZB := read_zb m c t
  hH := read_h m c t
  hHB := read_hb m c t
  hHT := read_ht m c t
  hC := read_c m c t
  hWa := read_U11 m c t
  hWb := read_U21 m c t
  hWc := read_W01 m c t
  hBi := read_bias m c t

end Cert.KernelArrays

end
-- ==== Proof.KernelRun.lean ====
/-
  The kernel's run, read: every weakly fair execution ends with the three result arrays at `hidOut`, `cellOut` and
  `boundaryOut` of the argument arrays, and the arguments unchanged.

  What point `t` writes back to a result array is the body's block read through the window: rows `512·t … 512·t + 511` of the
  result (`flushed_*`). Row `r` of an array lies in the block of point `r / 512`, so the 32 blocks cover each array
  (`cover_*`), and an array covered by blocks that are all restrictions of one function ends holding that function.
-/
import proofs.«139101_j45878840656512_1_alg».proof.Proof.KernelArrays

noncomputable section

namespace Cert.KernelRun

open Cert.KernelIdeal Cert.KernelIdeal.Gen Cert.KernelIdeal.ValueP Cert.CellSpec Cert.KernelGates Cert.KernelArrays
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## What a point writes back -/

/-- Point `t` writes rows `512·t …` of the new hidden state. -/
theorem flushed_hid (c : Dev nD) (t : Fin cfg0.N) :
    (dats m 0 c).flushed 10 t = ((cfg0.win 10).blk t).view.read (Elt Ideal) (hidOut (args m c)) := by
  have h0 : win0_10.index t (0 : Fin 2) = t.val := (idx_moving t).2.2.2.2.2.2.1.1
  have h1 : win0_10.index t (1 : Fin 2) = 0 := (idx_moving t).2.2.2.2.2.2.1.2
  rw [flushed10, hid_block (iblk m c 0 t) (iblk m c 1 t) (iblk m c 2 t) (iblk m c 3 t) (iblk m c 4 t) (iblk m c 5 t) (iblk m c 6 t) (iblk m c 7 t) (iblk m c 8 t) (iblk m c 9 t)]
  funext y
  obtain ⟨p, q, rfl⟩ : ∃ (p q : Fin 512), y = ix2 p q := ⟨y 0, y 1, eq_ix2 y⟩
  show E10 (F := Ideal) (iblk m c 4 t) (iblk m c 5 t) (iblk m c 2 t) (iblk m c 1 t) (iblk m c 3 t) (iblk m c 6 t) (iblk m c 7 t) (iblk m c 8 t) (iblk m c 9 t) (iblk m c 0 t) (ix2 p q) = hidOut (args m c) (((cfg0.win 10).blk t).view.emb (ix2 p q))
  rw [hid_of_rows (rows_at m c t) p q]
  show hidAt (args m c) (rowAt (t.val * 512) (row_bound t) p) q = hidAt (args m c) ((((cfg0.win 10).blk t).view.emb (ix2 p q)) 0) ((((cfg0.win 10).blk t).view.emb (ix2 p q)) 1)
  have e0 : rowAt (t.val * 512) (row_bound t) p = (((cfg0.win 10).blk t).view.emb (ix2 p q)) 0 :=
    Fin.ext (by show t.val * 512 + p.val = win0_10.index t (0 : Fin 2) * 512 + 1 * p.val; rw [h0]; omega)
  have e1 : q = (((cfg0.win 10).blk t).view.emb (ix2 p q)) 1 :=
    Fin.ext (by show q.val = win0_10.index t (1 : Fin 2) * 512 + 1 * q.val; rw [h1]; omega)
  exact congrArg₂ (hidAt (args m c)) e0 e1

/-- Point `t` writes rows `512·t …` of the new cell state. -/
theorem flushed_cell (c : Dev nD) (t : Fin cfg0.N) :
    (dats m 0 c).flushed 11 t = ((cfg0.win 11).blk t).view.read (Elt Ideal) (cellOut (args m c)) := by
  have h0 : win0_11.index t (0 : Fin 2) = t.val := (idx_moving t).2.2.2.2.2.2.2.1.1
  have h1 : win0_11.index t (1 : Fin 2) = 0 := (idx_moving t).2.2.2.2.2.2.2.1.2
  rw [flushed11, cell_block (iblk m c 0 t) (iblk m c 1 t) (iblk m c 2 t) (iblk m c 3 t) (iblk m c 4 t) (iblk m c 5 t) (iblk m c 6 t) (iblk m c 7 t) (iblk m c 8 t) (iblk m c 9 t)]
  funext y
  obtain ⟨p, q, rfl⟩ : ∃ (p q : Fin 512), y = ix2 p q := ⟨y 0, y 1, eq_ix2 y⟩
  show E11 (F := Ideal) (iblk m c 4 t) (iblk m c 2 t) (iblk m c 1 t) (iblk m c 3 t) (iblk m c 5 t) (iblk m c 6 t) (iblk m c 7 t) (iblk m c 8 t) (iblk m c 9 t) (iblk m c 0 t) (ix2 p q) = cellOut (args m c) (((cfg0.win 11).blk t).view.emb (ix2 p q))
  rw [cell_of_rows (rows_at m c t) p q]
  show cellAt (args m c) (rowAt (t.val * 512) (row_bound t) p) q = cellAt (args m c) ((((cfg0.win 11).blk t).view.emb (ix2 p q)) 0) ((((cfg0.win 11).blk t).view.emb (ix2 p q)) 1)
  have e0 : rowAt (t.val * 512) (row_bound t) p = (((cfg0.win 11).blk t).view.emb (ix2 p q)) 0 :=
    Fin.ext (by show t.val * 512 + p.val = win0_11.index t (0 : Fin 2) * 512 + 1 * p.val; rw [h0]; omega)
  have e1 : q = (((cfg0.win 11).blk t).view.emb (ix2 p q)) 1 :=
    Fin.ext (by show q.val = win0_11.index t (1 : Fin 2) * 512 + 1 * q.val; rw [h1]; omega)
  exact congrArg₂ (cellAt (args m c)) e0 e1

/-- Point `t` writes rows `512·t …` of the new boundary indicator. -/
theorem flushed_boundary (c : Dev nD) (t : Fin cfg0.N) :
    (dats m 0 c).flushed 12 t = ((cfg0.win 12).blk t).view.read (Elt Ideal) (boundaryOut (args m c)) := by
  have h0 : win0_12.index t (0 : Fin 2) = t.val := (idx_moving t).2.2.2.2.2.2.2.2.1
  have h1 : win0_12.index t (1 : Fin 2) = 0 := (idx_moving t).2.2.2.2.2.2.2.2.2
  rw [flushed12, boundary_block (iblk m c 0 t) (iblk m c 1 t) (iblk m c 2 t) (iblk m c 3 t) (iblk m c 4 t) (iblk m c 5 t) (iblk m c 6 t) (iblk m c 7 t) (iblk m c 8 t) (iblk m c 9 t)]
  funext y
  obtain ⟨p, rfl⟩ : ∃ (p : Fin 512), y = ix2 p (0 : Fin 1) := ⟨y 0, (eq_ix2 y).trans (congrArg (ix2 (y 0)) (Fin.ext (by have h1 : (y 1).val < 1 := (y 1).isLt; show (y 1).val = 0; omega) : (y 1 : Fin 1) = (0 : Fin 1)))⟩
  show E12 (F := Ideal) (iblk m c 2 t) (iblk m c 1 t) (iblk m c 3 t) (iblk m c 4 t) (iblk m c 5 t) (iblk m c 6 t) (iblk m c 7 t) (iblk m c 8 t) (iblk m c 9 t) (ix2 p (0 : Fin 1)) = boundaryOut (args m c) (((cfg0.win 12).blk t).view.emb (ix2 p (0 : Fin 1)))
  rw [boundary_of_rows (rows_at m c t) p]
  show boundaryAt (args m c) (rowAt (t.val * 512) (row_bound t) p) = boundaryAt (args m c) ((((cfg0.win 12).blk t).view.emb (ix2 p (0 : Fin 1))) 0)
  have e0 : rowAt (t.val * 512) (row_bound t) p = (((cfg0.win 12).blk t).view.emb (ix2 p (0 : Fin 1))) 0 :=
    Fin.ext (by show t.val * 512 + p.val = win0_12.index t (0 : Fin 2) * 512 + 1 * p.val; rw [h0]; omega)
  exact congrArg (boundaryAt (args m c)) e0

/-! ## The blocks cover the arrays -/

theorem mem_blk_hid (t : Fin cfg0.N) (i : S16384x512.Idx) :
    i ∈ ((cfg0.win 10).blk t).view.set ↔ ∀ a : Fin 2, win0_10.index t a * S512x512.size a ≤ (i a).val ∧ (i a).val < win0_10.index t a * S512x512.size a + S512x512.size a := by
  show i ∈ ((View.whole main_v8_0).slice (win0_10.rect t)).set ↔ _
  rw [View.set_slice_whole, Rect.mem_set_unit]
  exact Iff.rfl

theorem cover_hid (i : S16384x512.Idx) : ∃ t : Fin cfg0.N, (cfg0.win 10).flush t = true ∧ i ∈ ((cfg0.win 10).blk t).view.set := by
  have hi0 : (i 0).val < 16384 := (i 0).isLt
  have hi1 : (i 1).val < 512 := (i 1).isLt
  have hN : cfg0.N = 32 := N_0
  refine ⟨⟨(i 0).val / 512, by rw [hN]; omega⟩, flush0_10 _, ?_⟩
  rw [mem_blk_hid]
  have h0 := ((idx_moving ⟨(i 0).val / 512, by rw [hN]; omega⟩).2.2.2.2.2.2.1).1
  have h1 := ((idx_moving ⟨(i 0).val / 512, by rw [hN]; omega⟩).2.2.2.2.2.2.1).2
  intro a
  match a with
  | ⟨0, _⟩ =>
    show win0_10.index ⟨(i 0).val / 512, _⟩ (0 : Fin 2) * 512 ≤ (i 0).val ∧ (i 0).val < win0_10.index ⟨(i 0).val / 512, _⟩ (0 : Fin 2) * 512 + 512
    rw [h0]
    show (i 0).val / 512 * 512 ≤ (i 0).val ∧ (i 0).val < (i 0).val / 512 * 512 + 512
    omega
  | ⟨1, _⟩ =>
    show win0_10.index ⟨(i 0).val / 512, _⟩ (1 : Fin 2) * 512 ≤ (i 1).val ∧ (i 1).val < win0_10.index ⟨(i 0).val / 512, _⟩ (1 : Fin 2) * 512 + 512
    rw [h1]
    omega

theorem mem_blk_cell (t : Fin cfg0.N) (i : S16384x512.Idx) :
    i ∈ ((cfg0.win 11).blk t).view.set ↔ ∀ a : Fin 2, win0_11.index t a * S512x512.size a ≤ (i a).val ∧ (i a).val < win0_11.index t a * S512x512.size a + S512x512.size a := by
  show i ∈ ((View.whole main_v8_1).slice (win0_11.rect t)).set ↔ _
  rw [View.set_slice_whole, Rect.mem_set_unit]
  exact Iff.rfl

theorem cover_cell (i : S16384x512.Idx) : ∃ t : Fin cfg0.N, (cfg0.win 11).flush t = true ∧ i ∈ ((cfg0.win 11).blk t).view.set := by
  have hi0 : (i 0).val < 16384 := (i 0).isLt
  have hi1 : (i 1).val < 512 := (i 1).isLt
  have hN : cfg0.N = 32 := N_0
  refine ⟨⟨(i 0).val / 512, by rw [hN]; omega⟩, flush0_11 _, ?_⟩
  rw [mem_blk_cell]
  have h0 := ((idx_moving ⟨(i 0).val / 512, by rw [hN]; omega⟩).2.2.2.2.2.2.2.1).1
  have h1 := ((idx_moving ⟨(i 0).val / 512, by rw [hN]; omega⟩).2.2.2.2.2.2.2.1).2
  intro a
  match a with
  | ⟨0, _⟩ =>
    show win0_11.index ⟨(i 0).val / 512, _⟩ (0 : Fin 2) * 512 ≤ (i 0).val ∧ (i 0).val < win0_11.index ⟨(i 0).val / 512, _⟩ (0 : Fin 2) * 512 + 512
    rw [h0]
    show (i 0).val / 512 * 512 ≤ (i 0).val ∧ (i 0).val < (i 0).val / 512 * 512 + 512
    omega
  | ⟨1, _⟩ =>
    show win0_11.index ⟨(i 0).val / 512, _⟩ (1 : Fin 2) * 512 ≤ (i 1).val ∧ (i 1).val < win0_11.index ⟨(i 0).val / 512, _⟩ (1 : Fin 2) * 512 + 512
    rw [h1]
    omega

theorem mem_blk_boundary (t : Fin cfg0.N) (i : S16384x1.Idx) :
    i ∈ ((cfg0.win 12).blk t).view.set ↔ ∀ a : Fin 2, win0_12.index t a * S512x1.size a ≤ (i a).val ∧ (i a).val < win0_12.index t a * S512x1.size a + S512x1.size a := by
  show i ∈ ((View.whole main_v8_2).slice (win0_12.rect t)).set ↔ _
  rw [View.set_slice_whole, Rect.mem_set_unit]
  exact Iff.rfl

theorem cover_boundary (i : S16384x1.Idx) : ∃ t : Fin cfg0.N, (cfg0.win 12).flush t = true ∧ i ∈ ((cfg0.win 12).blk t).view.set := by
  have hi0 : (i 0).val < 16384 := (i 0).isLt
  have hi1 : (i 1).val < 1 := (i 1).isLt
  have hN : cfg0.N = 32 := N_0
  refine ⟨⟨(i 0).val / 512, by rw [hN]; omega⟩, flush0_12 _, ?_⟩
  rw [mem_blk_boundary]
  have h0 := ((idx_moving ⟨(i 0).val / 512, by rw [hN]; omega⟩).2.2.2.2.2.2.2.2).1
  have h1 := ((idx_moving ⟨(i 0).val / 512, by rw [hN]; omega⟩).2.2.2.2.2.2.2.2).2
  intro a
  match a with
  | ⟨0, _⟩ =>
    show win0_12.index ⟨(i 0).val / 512, _⟩ (0 : Fin 2) * 512 ≤ (i 0).val ∧ (i 0).val < win0_12.index ⟨(i 0).val / 512, _⟩ (0 : Fin 2) * 512 + 512
    rw [h0]
    show (i 0).val / 512 * 512 ≤ (i 0).val ∧ (i 0).val < (i 0).val / 512 * 512 + 512
    omega
  | ⟨1, _⟩ =>
    show win0_12.index ⟨(i 0).val / 512, _⟩ (1 : Fin 2) * 1 ≤ (i 1).val ∧ (i 1).val < win0_12.index ⟨(i 0).val / 512, _⟩ (1 : Fin 2) * 1 + 1
    rw [h1]
    omega

/-! ## The arrays after the run -/

theorem final_hid (c : Dev nD) : (dats m 0 c).arrAt 10 cfg0.N = hidOut (args m c) :=
  (dats m 0 c).arrAt_eq_of_cover 10 (hidOut (args m c)) (fun t _ => flushed_hid m c t) cover_hid

theorem final_cell (c : Dev nD) : (dats m 0 c).arrAt 11 cfg0.N = cellOut (args m c) :=
  (dats m 0 c).arrAt_eq_of_cover 11 (cellOut (args m c)) (fun t _ => flushed_cell m c t) cover_cell

theorem final_boundary (c : Dev nD) : (dats m 0 c).arrAt 12 cfg0.N = boundaryOut (args m c) :=
  (dats m 0 c).arrAt_eq_of_cover 12 (boundaryOut (args m c)) (fun t _ => flushed_boundary m c t) cover_boundary

/-- The run: the three results at the cell's three functions of the arguments, the arguments unchanged. -/
theorem run : θ_run defs (onTc (τ := τ) (main (F := Ideal))) ⟨m, fun _ => 0, ρ⟩ fun r => ∀ c : Dev nD,
      r.2.mem ((c : Thread nD τ).loc main_v8_0) = hidOut (args m c)
      ∧ r.2.mem ((c : Thread nD τ).loc main_v8_1) = cellOut (args m c)
      ∧ r.2.mem ((c : Thread nD τ).loc main_v8_2) = boundaryOut (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final_hid m c), (h c).2.1.trans (final_cell m c),
      (h c).2.2.1.trans (final_boundary m c), (h c).2.2.2⟩)
    (run_blocks m ρ)

end Cert.KernelRun

end
-- ==== Proof.RefCell.lean ====
/-
  The reference program computes the cell of `CellSpec`: read one operation at a time, its three results are `hidOut`, `cellOut`
  and `boundaryOut` of its ten arguments.

  The reference forms the pre-activations as three whole matrix products (each entry a sum over the 512 contracted entries),
  scales two of them by the row's indicators, adds the bias along the rows, and cuts the five column ranges out of the
  `[16384, 2049]` result; an entry of a cut is the entry of the whole at the shifted column. Its logistic function is spelt
  `1 / (1 + exp (−x))`, which is the logistic function of the extended reals by definition once the word of `1.0` is read as `1`.
  Its rounded boundary is in the straight-through form, `ẑ + (round ẑ − ẑ)`, which is `round ẑ` by `CellSpec.straight_through`.
-/
import proofs.«139101_j45878840656512_1_alg».proof.Proof.Gen.ReferenceIdeal.Read
import proofs.«139101_j45878840656512_1_alg».proof.Proof.CellSpec

noncomputable section

namespace Cert.RefCell

open Cert.ReferenceIdeal Cert.ReferenceIdeal.Read Cert.CellSpec Idealize.ShloMosaic Idealize.ShloMosaic.ValueIdx

/-- The word of `1.0` is the extended real `1`. -/
theorem ofBits_one : Ideal.ofBits .f32 0x3F800000#32 = (1 : EReal) := one_eq.trans EReal.coe_one

/-- An entry of the reference's `[16384, 2049]` pre-activation array is the gate pre-activation of its row and column. -/
theorem ref_pre (A : CellArgs) (j : S16384x2049.Idx) :
    val_main_v11 (F := Ideal) A.hb A.h A.ht A.z A.zb A.U11 A.U21 A.W01 A.bias j = gatePre A (j 0) (j 1) := by
  have l0 : ∀ k, lidx_main_v0 j k = ix2 (j 0) k := fun k => funext fun a => by match a with | ⟨0, _⟩ => rfl | ⟨1, _⟩ => rfl
  have r0 : ∀ k, ridx_main_v0 j k = ix2 k (j 1) := fun k => funext fun a => by match a with | ⟨0, _⟩ => rfl | ⟨1, _⟩ => rfl
  have l1 : ∀ k, lidx_main_v1 j k = ix2 (j 0) k := fun k => funext fun a => by match a with | ⟨0, _⟩ => rfl | ⟨1, _⟩ => rfl
  have r1 : ∀ k, ridx_main_v1 j k = ix2 k (j 1) := fun k => funext fun a => by match a with | ⟨0, _⟩ => rfl | ⟨1, _⟩ => rfl
  have l4 : ∀ k, lidx_main_v4 j k = ix2 (j 0) k := fun k => funext fun a => by match a with | ⟨0, _⟩ => rfl | ⟨1, _⟩ => rfl
  have r4 : ∀ k, ridx_main_v4 j k = ix2 k (j 1) := fun k => funext fun a => by match a with | ⟨0, _⟩ => rfl | ⟨1, _⟩ => rfl
  have e2 : idx_main_v2 j = ix2 (j 0) (0 : Fin 1) := funext fun a => by match a with | ⟨0, _⟩ => rfl | ⟨1, _⟩ => rfl
  have e5 : idx_main_v5 j = ix2 (j 0) (0 : Fin 1) := funext fun a => by match a with | ⟨0, _⟩ => rfl | ⟨1, _⟩ => rfl
  have e9 : idx_main_v9 (idx_main_v10 j) = ix1 (j 1) := funext fun a => by match a with | ⟨0, _⟩ => rfl
  rw [val_main_v11_apply, val_main_v8_apply, val_main_v7_apply, val_main_v0_apply, val_main_v3_apply, val_main_v2_apply,
    val_main_v1_apply, val_main_v6_apply, val_main_v5_apply, val_main_v4_apply, val_main_v10_apply, val_main_v9_apply]
  simp only [l0, r0, l1, r1, l4, r4, e2, e5, e9, Ideal.addf_def, Ideal.mulf_def]
  rfl

/-- The reference's `1 / (1 + exp (−x))` is the logistic function. -/
theorem logistic_spelt (x : EReal) :
    FloatOps.hostDivf (F := Ideal) (φ := .f32) (Ideal.ofBits .f32 0x3F800000#32)
      (FloatOps.addf (F := Ideal) (φ := .f32) (Ideal.ofBits .f32 0x3F800000#32) (FloatOps.hostUnary (F := Ideal) (φ := .f32) .exp (FloatOps.hostNegf (F := Ideal) (φ := .f32) x)))
      = Ideal.logistic x := by
  simp only [Ideal.hostDivf_def, Ideal.addf_def, Ideal.hostUnary_exp_def, Ideal.hostNegf_def, Ideal.negf_def, ofBits_one]
  rfl

/-- The forget gate: the logistic function of columns `0 … 511`. -/
theorem ref_forget (A : CellArgs) (i : S16384x512.Idx) :
    val_main_v18 (F := Ideal) A.hb A.h A.ht A.z A.zb A.U11 A.U21 A.W01 A.bias i = Ideal.logistic (gatePre A (i 0) (colF (i 1))) := by
  rw [val_main_v18_apply, val_main_v17_apply, val_main_cst_0_apply, val_main_v16_apply, val_main_v15_apply, val_main_cst_apply,
    val_main_v14_apply, val_main_v13_apply, val_main_v12_apply, ref_pre]
  exact logistic_spelt _

/-- The input gate: the logistic function of columns `512 … 1023`. -/
theorem ref_input (A : CellArgs) (i : S16384x512.Idx) :
    val_main_v25 (F := Ideal) A.hb A.h A.ht A.z A.zb A.U11 A.U21 A.W01 A.bias i = Ideal.logistic (gatePre A (i 0) (colI (i 1))) := by
  rw [val_main_v25_apply, val_main_v24_apply, val_main_cst_2_apply, val_main_v23_apply, val_main_v22_apply, val_main_cst_1_apply,
    val_main_v21_apply, val_main_v20_apply, val_main_v19_apply, ref_pre]
  exact logistic_spelt _

/-- The output gate: the logistic function of columns `1024 … 1535`. -/
theorem ref_output (A : CellArgs) (i : S16384x512.Idx) :
    val_main_v32 (F := Ideal) A.hb A.h A.ht A.z A.zb A.U11 A.U21 A.W01 A.bias i = Ideal.logistic (gatePre A (i 0) (colO (i 1))) := by
  rw [val_main_v32_apply, val_main_v31_apply, val_main_cst_4_apply, val_main_v30_apply, val_main_v29_apply, val_main_cst_3_apply,
    val_main_v28_apply, val_main_v27_apply, val_main_v26_apply, ref_pre]
  exact logistic_spelt _

/-- The candidate: tanh of columns `1536 … 2047`. -/
theorem ref_cand (A : CellArgs) (i : S16384x512.Idx) :
    val_main_v34 (F := Ideal) A.hb A.h A.ht A.z A.zb A.U11 A.U21 A.W01 A.bias i = Ideal.tanh (gatePre A (i 0) (colG (i 1))) := by
  rw [val_main_v34_apply, val_main_v33_apply, ref_pre]
  rfl

/-- The hard sigmoid of column 2048. -/
theorem ref_hardSig (A : CellArgs) (i : S16384x1.Idx) :
    val_main_v42 (F := Ideal) A.hb A.h A.ht A.z A.zb A.U11 A.U21 A.W01 A.bias i = hardSig (gatePre A (i 0) colZ) := by
  rw [val_main_v42_apply, val_main_call0_v4_apply, val_main_call0_v3_apply, val_main_cst_9_apply, val_main_call0_v2_apply,
    val_main_call0_v1_apply, val_main_call0_v0_apply, val_main_cst_8_apply, val_main_v41_apply, val_main_v40_apply,
    val_main_cst_7_apply, val_main_v39_apply, val_main_v38_apply, val_main_cst_6_apply, val_main_v37_apply, val_main_v36_apply,
    val_main_cst_5_apply, val_main_v35_apply, ref_pre]
  have hc : (idx_main_v35 i) 1 = colZ := Fin.ext (by
    show 2048 + (i 1).val = 2048
    have h1 : (i 1).val < 1 := (i 1).isLt
    omega)
  rw [hc]
  rfl

/-- `1 − z` and `1 − zb` of a row. -/
theorem ref_one_sub_z (A : CellArgs) (j : S16384x1.Idx) : val_main_v44 (F := Ideal) A.z j = one - A.z j := by
  rw [val_main_v44_apply, val_main_v43_apply, val_main_cst_10_apply]; rfl

theorem ref_one_sub_zb (A : CellArgs) (j : S16384x1.Idx) : val_main_v46 (F := Ideal) A.zb j = one - A.zb j := by
  rw [val_main_v46_apply, val_main_v45_apply, val_main_cst_11_apply]; rfl

/-- The reference's second result is the new cell state. -/
theorem ref_cell (A : CellArgs) :
    val_main_v59 (F := Ideal) A.c A.hb A.h A.ht A.z A.zb A.U11 A.U21 A.W01 A.bias = cellOut A := by
  funext i
  obtain ⟨r, q, rfl⟩ : ∃ (r : Fin 16384) (q : Fin 512), i = ix2 r q := ⟨i 0, i 1, eq_ix2 i⟩
  rw [val_main_v59_apply, val_main_v53_apply, val_main_v49_apply, val_main_v48_apply, val_main_v47_apply, ref_input, ref_cand,
    val_main_v52_apply, val_main_v51_apply, val_main_v50_apply, ref_one_sub_z, ref_one_sub_zb,
    val_main_v58_apply, val_main_v57_apply, val_main_v54_apply, ref_one_sub_z, val_main_v56_apply, val_main_v55_apply, ref_forget,
    val_main_v47_apply, ref_input, ref_cand]
  have e48 : idx_main_v48 (ix2 r q) = ix2 r (0 : Fin 1) := funext fun a => by match a with | ⟨0, _⟩ => rfl | ⟨1, _⟩ => rfl
  have e51 : idx_main_v51 (ix2 r q) = ix2 r (0 : Fin 1) := funext fun a => by match a with | ⟨0, _⟩ => rfl | ⟨1, _⟩ => rfl
  have e57 : idx_main_v57 (ix2 r q) = ix2 r (0 : Fin 1) := funext fun a => by match a with | ⟨0, _⟩ => rfl | ⟨1, _⟩ => rfl
  rw [e48, e51, e57]
  rfl

/-- The reference's first result is the new hidden state. -/
theorem ref_hid (A : CellArgs) :
    val_main_v69 (F := Ideal) A.c A.hb A.h A.ht A.z A.zb A.U11 A.U21 A.W01 A.bias = hidOut A := by
  funext i
  obtain ⟨r, q, rfl⟩ : ∃ (r : Fin 16384) (q : Fin 512), i = ix2 r q := ⟨i 0, i 1, eq_ix2 i⟩
  rw [val_main_v69_apply, val_main_v62_apply, val_main_v61_apply, val_main_v60_apply, ref_one_sub_z, ref_one_sub_zb,
    val_main_v68_apply, val_main_v66_apply, val_main_v65_apply, val_main_v64_apply, val_main_v63_apply, ref_one_sub_z, ref_output,
    val_main_v67_apply, ref_cell]
  have e61 : idx_main_v61 (ix2 r q) = ix2 r (0 : Fin 1) := funext fun a => by match a with | ⟨0, _⟩ => rfl | ⟨1, _⟩ => rfl
  have e65 : idx_main_v65 (ix2 r q) = ix2 r (0 : Fin 1) := funext fun a => by match a with | ⟨0, _⟩ => rfl | ⟨1, _⟩ => rfl
  rw [e61, e65]
  rfl

/-- The reference's third result, in the straight-through form, is the rounded boundary. -/
theorem ref_boundary (A : CellArgs) :
    val_main_v72 (F := Ideal) A.hb A.h A.ht A.z A.zb A.U11 A.U21 A.W01 A.bias = boundaryOut A := by
  funext i
  rw [val_main_v72_apply, val_main_v71_apply, val_main_v70_apply, ref_hardSig]
  show hardSig _ + (roundE (hardSig _) - hardSig _) = roundE (hardSig _)
  exact straight_through _

end Cert.RefCell

end
-- ==== Proof.lean ====
/-
  The kernel and its reference compute one function: the forward pass of a hierarchical multiscale LSTM cell over 16384
  rows (`Proof/CellSpec.lean`).

  The kernel walks the rows in 32 blocks of 512. At each block it forms the gate pre-activations as three matrix products
  against weights padded from 2049 to 2176 columns, and only columns below 2049 are ever read back, where padding changes
  nothing; its results are rows of `hidOut`, `cellOut` and `boundaryOut` (`Proof/KernelGates.lean`, `Proof/KernelArrays.lean`,
  `Proof/KernelRun.lean`). The reference forms the same pre-activations as three whole products; its two spellings that differ
  from the kernel's — the logistic function written out as `1 / (1 + exp (−x))`, and the boundary in the straight-through
  form `ẑ + (round ẑ − ẑ)` — denote the same extended reals, the second because the clipped `ẑ` is a real number
  (`Proof/RefCell.lean`). No law beyond these is used, so the precondition is never opened.

  The three frames are the programs' runs with the results dropped; the ideal pass rewrote nothing, so `preserves` is trivial.
-/
import proofs.«139101_j45878840656512_1_alg».proof.Defs
import proofs.«139101_j45878840656512_1_alg».proof.Proof.Gen.Kernel
import proofs.«139101_j45878840656512_1_alg».proof.Proof.Gen.Kernel.Skeleton
import proofs.«139101_j45878840656512_1_alg».proof.Proof.Gen.Kernel.Launch
import proofs.«139101_j45878840656512_1_alg».proof.Proof.Gen.Kernel.Points
import proofs.«139101_j45878840656512_1_alg».proof.Proof.Gen.Kernel.Frame
import proofs.«139101_j45878840656512_1_alg».proof.Proof.Gen.KernelIdeal
import proofs.«139101_j45878840656512_1_alg».proof.Proof.Gen.KernelIdeal.Skeleton
import proofs.«139101_j45878840656512_1_alg».proof.Proof.Gen.KernelIdeal.Launch
import proofs.«139101_j45878840656512_1_alg».proof.Proof.Gen.KernelIdeal.Points
import proofs.«139101_j45878840656512_1_alg».proof.Proof.Gen.KernelIdeal.Frame
import proofs.«139101_j45878840656512_1_alg».proof.Proof.Gen.ReferenceIdeal
import proofs.«139101_j45878840656512_1_alg».proof.Proof.Gen.Pre_finite_inputs
import proofs.«139101_j45878840656512_1_alg».proof.Proof.Gen.ReferenceIdeal.Run
import proofs.«139101_j45878840656512_1_alg».proof.Proof.Gen.ReferenceIdeal.Read
import proofs.«139101_j45878840656512_1_alg».proof.Proof.KernelRun
import proofs.«139101_j45878840656512_1_alg».proof.Proof.RefCell
import Idealize.ShloMosaic.Adequacy
import Idealize.ShloMosaic.Init

noncomputable section

namespace Cert.Proof

open Idealize.ShloMosaic Idealize.SL.Sem Cert.CellSpec

/-- The reference's ten argument arrays as launched on core `c`. -/
def refArgs (m' : (ℓ : Loc Cert.ReferenceIdeal.nD Cert.ReferenceIdeal.τ Cert.ReferenceIdeal.sig) → Buf (Elt Ideal) ℓ)
    (c : Dev Cert.ReferenceIdeal.nD) : CellArgs where
  c := (m' ((c.tc : Thread Cert.ReferenceIdeal.nD Cert.ReferenceIdeal.τ).loc Cert.ReferenceIdeal.main_arg0))
  hb := (m' ((c.tc : Thread Cert.ReferenceIdeal.nD Cert.ReferenceIdeal.τ).loc Cert.ReferenceIdeal.main_arg1))
  h := (m' ((c.tc : Thread Cert.ReferenceIdeal.nD Cert.ReferenceIdeal.τ).loc Cert.ReferenceIdeal.main_arg2))
  ht := (m' ((c.tc : Thread Cert.ReferenceIdeal.nD Cert.ReferenceIdeal.τ).loc Cert.ReferenceIdeal.main_arg3))
  z := (m' ((c.tc : Thread Cert.ReferenceIdeal.nD Cert.ReferenceIdeal.τ).loc Cert.ReferenceIdeal.main_arg4))
  zb := (m' ((c.tc : Thread Cert.ReferenceIdeal.nD Cert.ReferenceIdeal.τ).loc Cert.ReferenceIdeal.main_arg5))
  U11 := (m' ((c.tc : Thread Cert.ReferenceIdeal.nD Cert.ReferenceIdeal.τ).loc Cert.ReferenceIdeal.main_arg6))
  U21 := (m' ((c.tc : Thread Cert.ReferenceIdeal.nD Cert.ReferenceIdeal.τ).loc Cert.ReferenceIdeal.main_arg7))
  W01 := (m' ((c.tc : Thread Cert.ReferenceIdeal.nD Cert.ReferenceIdeal.τ).loc Cert.ReferenceIdeal.main_arg8))
  bias := (m' ((c.tc : Thread Cert.ReferenceIdeal.nD Cert.ReferenceIdeal.τ).loc Cert.ReferenceIdeal.main_arg9))

theorem frame_kernel : Cert.frame_Kernel :=
  fun m ρ _ => Cert.Kernel.Gen.frame m ρ

theorem frame_kernelIdeal : Cert.frame_KernelIdeal :=
  fun m ρ _ => Cert.KernelIdeal.Gen.frame m ρ

theorem frame_referenceIdeal : Cert.frame_ReferenceIdeal :=
  fun m ρ _ => (θ_run Cert.ReferenceIdeal.defs _ _).mono (fun _ h c => (h c).2.2.2) (Cert.ReferenceIdeal.Value.run (F := Ideal) m ρ)

/-- Both programs end with the three results at the cell's functions of arguments that agree. -/
theorem algebraic : Cert.algebraic_KernelIdeal_ReferenceIdeal := by
  intro m ρ m' ρ' _ hagree
  refine ⟨fun c => hidOut (Cert.KernelArrays.args m c), fun c => cellOut (Cert.KernelArrays.args m c),
    fun c => boundaryOut (Cert.KernelArrays.args m c), Cert.KernelRun.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9⟩ := hagree c
  have hA : refArgs m' c = Cert.KernelArrays.args m c := by
    unfold refArgs Cert.KernelArrays.args
    rw [a0, a1, a2, a3, a4, a5, a6, a7, a8, a9]
  refine ⟨(h c).1.trans ?_, (h c).2.1.trans ?_, (h c).2.2.1.trans ?_, (h c).2.2.2⟩
  · exact (Cert.ReferenceIdeal.Read.val_main_v69_eq m' c).trans ((Cert.RefCell.ref_hid (refArgs m' c)).trans (congrArg hidOut hA))
  · exact (Cert.ReferenceIdeal.Read.val_main_v59_eq m' c).trans ((Cert.RefCell.ref_cell (refArgs m' c)).trans (congrArg cellOut hA))
  · exact (Cert.ReferenceIdeal.Read.val_main_v72_eq m' c).trans ((Cert.RefCell.ref_boundary (refArgs m' c)).trans (congrArg boundaryOut hA))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
